-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S2112x8192 : Shape := ⟨2, ![2112, 8192]⟩
abbrev S2112x264 : Shape := ⟨2, ![2112, 264]⟩
abbrev S264x264 : Shape := ⟨2, ![264, 264]⟩
abbrev S264 : Shape := ⟨1, ![264]⟩
abbrev S88x264 : Shape := ⟨2, ![88, 264]⟩
abbrev S88 : Shape := ⟨1, ![88]⟩
abbrev S88x88 : Shape := ⟨2, ![88, 88]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S2112x8192 : S_.BroadcastsInDim S2112x8192 (![] : Fin 0 → Fin S2112x8192.rank)
  reducesTo_S2112x8192_S_d0_1 : S2112x8192.ReducesTo [0, 1] S_
  bcast_S_S2112x264 : S_.BroadcastsInDim S2112x264 (![] : Fin 0 → Fin S2112x264.rank)
  reducesTo_S2112x264_S_d0_1 : S2112x264.ReducesTo [0, 1] S_
  bcast_S_S264x264 : S_.BroadcastsInDim S264x264 (![] : Fin 0 → Fin S264x264.rank)
  reducesTo_S264x264_S_d0_1 : S264x264.ReducesTo [0, 1] S_
  bcast_S_S264 : S_.BroadcastsInDim S264 (![] : Fin 0 → Fin S264.rank)
  reducesTo_S264_S_d0 : S264.ReducesTo [0] S_
  bcast_S_S88x264 : S_.BroadcastsInDim S88x264 (![] : Fin 0 → Fin S88x264.rank)
  reducesTo_S88x264_S_d0_1 : S88x264.ReducesTo [0, 1] S_
  bcast_S_S88 : S_.BroadcastsInDim S88 (![] : Fin 0 → Fin S88.rank)
  reducesTo_S88_S_d0 : S88.ReducesTo [0] S_
  bcast_S_S88x88 : S_.BroadcastsInDim S88x88 (![] : Fin 0 → Fin S88x88.rank)
  reducesTo_S88x88_S_d0_1 : S88x88.ReducesTo [0, 1] S_

variable [Facts]

def fn_part3 {F : FTy → Type} [FloatOps F] (main_v48 : IVec S_ 1) (main_v49 : FVec F S88 .f32) (main_v50 : FVec F S88 .f32) : IVec S_ 1 :=
  let main_v51 : IVec S88 1 := cmpf .olt main_v49 main_v50
  let main_c_19 : IVec S_ 1 := constantI S_ 1 1#1
  let main_v52 : IVec S_ 1 := (fun x v => Host.reduce IntOp.andi x v reducesTo_S88_S_d0 h_S_) main_v51 main_c_19
  let main_v53 : IVec S_ 1 := andi main_v48 main_v52
  main_v53

def fn_part2 {F : FTy → Type} [FloatOps F] (main_arg7 : FVec F S88x264 .f32) (main_arg8 : FVec F S88 .f32) (main_arg9 : FVec F S88x88 .f32) (main_arg10 : FVec F S88 .f32) (main_v33 : IVec S_ 1) : IVec S_ 1 :=
  let main_v34 : FVec F S88x264 .f32 := Host.absf main_arg7
  let main_cst_12 : FVec F S_ .f32 := constant S_ .f32 0x7F800000#32
  let main_v35 : FVec F S88x264 .f32 := broadcastInDim S88x264 ![] bcast_S_S88x264 main_cst_12
  let main_v36 : IVec S88x264 1 := cmpf .olt main_v34 main_v35
  let main_c_13 : IVec S_ 1 := constantI S_ 1 1#1
  let main_v37 : IVec S_ 1 := (fun x v => Host.reduce IntOp.andi x v reducesTo_S88x264_S_d0_1 h_S_) main_v36 main_c_13
  let main_v38 : IVec S_ 1 := andi main_v33 main_v37
  let main_v39 : FVec F S88 .f32 := Host.absf main_arg8
  let main_cst_14 : FVec F S_ .f32 := constant S_ .f32 0x7F800000#32
  let main_v40 : FVec F S88 .f32 := broadcastInDim S88 ![] bcast_S_S88 main_cst_14
  let main_v41 : IVec S88 1 := cmpf .olt main_v39 main_v40
  let main_c_15 : IVec S_ 1 := constantI S_ 1 1#1
  let main_v42 : IVec S_ 1 := (fun x v => Host.reduce IntOp.andi x v reducesTo_S88_S_d0 h_S_) main_v41 main_c_15
  let main_v43 : IVec S_ 1 := andi main_v38 main_v42
  let main_v44 : FVec F S88x88 .f32 := Host.absf main_arg9
  let main_cst_16 : FVec F S_ .f32 := constant S_ .f32 0x7F800000#32
  let main_v45 : FVec F S88x88 .f32 := broadcastInDim S88x88 ![] bcast_S_S88x88 main_cst_16
  let main_v46 : IVec S88x88 1 := cmpf .olt main_v44 main_v45
  let main_c_17 : IVec S_ 1 := constantI S_ 1 1#1
  let main_v47 : IVec S_ 1 := (fun x v => Host.reduce IntOp.andi x v reducesTo_S88x88_S_d0_1 h_S_) main_v46 main_c_17
  let main_v48 : IVec S_ 1 := andi main_v43 main_v47
  let main_v49 : FVec F S88 .f32 := Host.absf main_arg10
  let main_cst_18 : FVec F S_ .f32 := constant S_ .f32 0x7F800000#32
  let main_v50 : FVec F S88 .f32 := broadcastInDim S88 ![] bcast_S_S88 main_cst_18
  fn_part3 (F := F) main_v48 main_v49 main_v50

def fn_part1 {F : FTy → Type} [FloatOps F] (main_arg4 : FVec F S2112x264 .f32) (main_arg5 : FVec F S264x264 .f32) (main_arg6 : FVec F S264 .f32) (main_arg7 : FVec F S88x264 .f32) (main_arg8 : FVec F S88 .f32) (main_arg9 : FVec F S88x88 .f32) (main_arg10 : FVec F S88 .f32) (main_v13 : IVec S_ 1) (main_v16 : IVec S2112x8192 1) : IVec S_ 1 :=
  let main_c_5 : IVec S_ 1 := constantI S_ 1 1#1
  let main_v17 : IVec S_ 1 := (fun x v => Host.reduce IntOp.andi x v reducesTo_S2112x8192_S_d0_1 h_S_) main_v16 main_c_5
  let main_v18 : IVec S_ 1 := andi main_v13 main_v17
  let main_v19 : FVec F S2112x264 .f32 := Host.absf main_arg4
  let main_cst_6 : FVec F S_ .f32 := constant S_ .f32 0x7F800000#32
  let main_v20 : FVec F S2112x264 .f32 := broadcastInDim S2112x264 ![] bcast_S_S2112x264 main_cst_6
  let main_v21 : IVec S2112x264 1 := cmpf .olt main_v19 main_v20
  let main_c_7 : IVec S_ 1 := constantI S_ 1 1#1
  let main_v22 : IVec S_ 1 := (fun x v => Host.reduce IntOp.andi x v reducesTo_S2112x264_S_d0_1 h_S_) main_v21 main_c_7
  let main_v23 : IVec S_ 1 := andi main_v18 main_v22
  let main_v24 : FVec F S264x264 .f32 := Host.absf main_arg5
  let main_cst_8 : FVec F S_ .f32 := constant S_ .f32 0x7F800000#32
  let main_v25 : FVec F S264x264 .f32 := broadcastInDim S264x264 ![] bcast_S_S264x264 main_cst_8
  let main_v26 : IVec S264x264 1 := cmpf .olt main_v24 main_v25
  let main_c_9 : IVec S_ 1 := constantI S_ 1 1#1
  let main_v27 : IVec S_ 1 := (fun x v => Host.reduce IntOp.andi x v reducesTo_S264x264_S_d0_1 h_S_) main_v26 main_c_9
  let main_v28 : IVec S_ 1 := andi main_v23 main_v27
  let main_v29 : FVec F S264 .f32 := Host.absf main_arg6
  let main_cst_10 : FVec F S_ .f32 := constant S_ .f32 0x7F800000#32
  let main_v30 : FVec F S264 .f32 := broadcastInDim S264 ![] bcast_S_S264 main_cst_10
  let main_v31 : IVec S264 1 := cmpf .olt main_v29 main_v30
  let main_c_11 : IVec S_ 1 := constantI S_ 1 1#1
  let main_v32 : IVec S_ 1 := (fun x v => Host.reduce IntOp.andi x v reducesTo_S264_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x8192 .f32) (main_arg1 : FVec F S4096x8192 .f32) (main_arg2 : FVec F S2112x8192 .f32) (main_arg3 : FVec F S2112x8192 .f32) (main_arg4 : FVec F S2112x264 .f32) (main_arg5 : FVec F S264x264 .f32) (main_arg6 : FVec F S264 .f32) (main_arg7 : FVec F S88x264 .f32) (main_arg8 : FVec F S88 .f32) (main_arg9 : FVec F S88x88 .f32) (main_arg10 : FVec F S88 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S2112x8192 .f32 := Host.absf main_arg2
  let main_cst_2 : FVec F S_ .f32 := constant S_ .f32 0x7F800000#32
  let main_v10 : FVec F S2112x8192 .f32 := broadcastInDim S2112x8192 ![] bcast_S_S2112x8192 main_cst_2
  let main_v11 : IVec S2112x8192 1 := cmpf .olt main_v9 main_v10
  let main_c_3 : IVec S_ 1 := constantI S_ 1 1#1
  let main_v12 : IVec S_ 1 := (fun x v => Host.reduce IntOp.andi x v reducesTo_S2112x8192_S_d0_1 h_S_) main_v11 main_c_3
  let main_v13 : IVec S_ 1 := andi main_v8 main_v12
  let main_v14 : FVec F S2112x8192 .f32 := Host.absf main_arg3
  let main_cst_4 : FVec F S_ .f32 := constant S_ .f32 0x7F800000#32
  let main_v15 : FVec F S2112x8192 .f32 := broadcastInDim S2112x8192 ![] bcast_S_S2112x8192 main_cst_4
  let main_v16 : IVec S2112x8192 1 := cmpf .olt main_v14 main_v15
  fn_part1 (F := F) main_arg4 main_arg5 main_arg6 main_arg7 main_arg8 main_arg9 main_arg10 main_v13 main_v16
-- ==== Kernel.lean ====
abbrev S4096x8192 : Shape := ⟨2, ![4096, 8192]⟩
abbrev S2112x8192 : Shape := ⟨2, ![2112, 8192]⟩
abbrev S2112x264 : Shape := ⟨2, ![2112, 264]⟩
abbrev S264x264 : Shape := ⟨2, ![264, 264]⟩
abbrev S264 : Shape := ⟨1, ![264]⟩
abbrev S88x264 : Shape := ⟨2, ![88, 264]⟩
abbrev S88 : Shape := ⟨1, ![88]⟩
abbrev S88x88 : Shape := ⟨2, ![88, 88]⟩
abbrev S_ : Shape := ⟨0, ![]⟩
abbrev S4096 : Shape := ⟨1, ![4096]⟩
abbrev S4096x1 : Shape := ⟨2, ![4096, 1]⟩
abbrev S1x264 : Shape := ⟨2, ![1, 264]⟩
abbrev S1x88 : Shape := ⟨2, ![1, 88]⟩
abbrev S4096x88 : Shape := ⟨2, ![4096, 88]⟩
abbrev S512x512 : Shape := ⟨2, ![512, 512]⟩
abbrev S2112x512 : Shape := ⟨2, ![2112, 512]⟩
abbrev S512x1 : Shape := ⟨2, ![512, 1]⟩
abbrev S512x88 : Shape := ⟨2, ![512, 88]⟩
abbrev S512x2112 : Shape := ⟨2, ![512, 2112]⟩
abbrev S512x264 : Shape := ⟨2, ![512, 264]⟩
abbrev S264x2112 : Shape := ⟨2, ![264, 2112]⟩
abbrev S264x88 : Shape := ⟨2, ![264, 88]⟩

abbrev nBuf : Space → Nat
  | .hbm => 29
  | .vmem => 19
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S2112x8192, .f32⟩
  | .hbm, ⟨3, _⟩ => ⟨S2112x8192, .f32⟩
  | .hbm, ⟨4, _⟩ => ⟨S2112x264, .f32⟩
  | .hbm, ⟨5, _⟩ => ⟨S264x264, .f32⟩
  | .hbm, ⟨6, _⟩ => ⟨S264, .f32⟩
  | .hbm, ⟨7, _⟩ => ⟨S88x264, .f32⟩
  | .hbm, ⟨8, _⟩ => ⟨S88, .f32⟩
  | .hbm, ⟨9, _⟩ => ⟨S88x88, .f32⟩
  | .hbm, ⟨10, _⟩ => ⟨S88, .f32⟩
  | .hbm, ⟨11, _⟩ => ⟨S_, .f32⟩
  | .hbm, ⟨12, _⟩ => ⟨S4096x8192, .f32⟩
  | .hbm, ⟨13, _⟩ => ⟨S4096x8192, .i1⟩
  | .hbm, ⟨14, _⟩ => ⟨S4096x8192, .i32⟩
  | .hbm, ⟨15, _⟩ => ⟨S_, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1, .f32⟩
  | .hbm, ⟨25, _⟩ => ⟨S1x264, .f32⟩
  | .hbm, ⟨26, _⟩ => ⟨S1x88, .f32⟩
  | .hbm, ⟨27, _⟩ => ⟨S1x88, .f32⟩
  | .hbm, ⟨28, _⟩ => ⟨S4096x88, .f32⟩
  | .local _ .vmem, ⟨0, _⟩ => ⟨S512x512, .f32⟩
  | .local _ .vmem, ⟨1, _⟩ => ⟨S512x512, .f32⟩
  | .local _ .vmem, ⟨2, _⟩ => ⟨S2112x512, .f32⟩
  | .local _ .vmem, ⟨3, _⟩ => ⟨S2112x512, .f32⟩
  | .local _ .vmem, ⟨4, _⟩ => ⟨S2112x512, .f32⟩
  | .local _ .vmem, ⟨5, _⟩ => ⟨S2112x512, .f32⟩
  | .local _ .vmem, ⟨6, _⟩ => ⟨S512x1, .f32⟩
  | .local _ .vmem, ⟨7, _⟩ => ⟨S512x1, .f32⟩
  | .local _ .vmem, ⟨8, _⟩ => ⟨S2112x264, .f32⟩
  | .local _ .vmem, ⟨9, _⟩ => ⟨S264x264, .f32⟩
  | .local _ .vmem, ⟨10, _⟩ => ⟨S1x264, .f32⟩
  | .local _ .vmem, ⟨11, _⟩ => ⟨S88x264, .f32⟩
  | .local _ .vmem, ⟨12, _⟩ => ⟨S1x88, .f32⟩
  | .local _ .vmem, ⟨13, _⟩ => ⟨S88x88, .f32⟩
  | .local _ .vmem, ⟨14, _⟩ => ⟨S1x88, .f32⟩
  | .local _ .vmem, ⟨15, _⟩ => ⟨S512x88, .f32⟩
  | .local _ .vmem, ⟨16, _⟩ => ⟨S512x88, .f32⟩
  | .local _ .vmem, ⟨17, _⟩ => ⟨S512x2112, .f32⟩
  | .local _ .vmem, ⟨18, _⟩ => ⟨S512x2112, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_c : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2112x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2112x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2112x264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S264x264 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x264 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S88x264 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x88 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S88x88 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x88 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x88 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  bcast_S_S4096x8192 : S_.BroadcastsInDim S4096x8192 (![] : Fin 0 → Fin S4096x8192.rank)
  natLt_1_32 : 1 < 32
  reducesTo_S4096x8192_S4096_d1 : S4096x8192.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  shapeCasts_S264_S1x264 : S264.ShapeCasts S1x264
  shapeCasts_S88_S1x88 : S88.ShapeCasts S1x88
  inb_S512x2112_S512x2112_0_0 : ∀ a, (![0, 0] : Fin 2 → Nat) a + S512x2112.size a ≤ S512x2112.size a
  h_S512x2112 : 0 < S512x2112.numel
  shapeCasts_S512x2112_S512x2112 : S512x2112.ShapeCasts S512x2112
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S2112x512_S2112x512_0_0 : ∀ a, (![0, 0] : Fin 2 → Nat) a + S2112x512.size a ≤ S2112x512.size a
  h_S2112x512 : 0 < S2112x512.numel
  transposes_S2112x512_p1_0_S512x2112 : S2112x512.Transposes [1, 0] S512x2112
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2112 : S512x1.Broadcasts S512x2112
  inb_S2112x264_S2112x264_0_0 : ∀ a, (![0, 0] : Fin 2 → Nat) a + S2112x264.size a ≤ S2112x264.size a
  h_S2112x264 : 0 < S2112x264.numel
  transposes_S2112x264_p1_0_S264x2112 : S2112x264.Transposes [1, 0] S264x2112
  inb_S264x264_S264x264_0_0 : ∀ a, (![0, 0] : Fin 2 → Nat) a + S264x264.size a ≤ S264x264.size a
  h_S264x264 : 0 < S264x264.numel
  transposes_S264x264_p1_0_S264x264 : S264x264.Transposes [1, 0] S264x264
  inb_S1x264_S1x264_0_0 : ∀ a, (![0, 0] : Fin 2 → Nat) a + S1x264.size a ≤ S1x264.size a
  h_S1x264 : 0 < S1x264.numel
  shapeCasts_S1x264_S1x264 : S1x264.ShapeCasts S1x264
  broadcasts_S1x264_S512x264 : S1x264.Broadcasts S512x264
  inb_S88x264_S88x264_0_0 : ∀ a, (![0, 0] : Fin 2 → Nat) a + S88x264.size a ≤ S88x264.size a
  h_S88x264 : 0 < S88x264.numel
  transposes_S88x264_p1_0_S264x88 : S88x264.Transposes [1, 0] S264x88
  inb_S1x88_S1x88_0_0 : ∀ a, (![0, 0] : Fin 2 → Nat) a + S1x88.size a ≤ S1x88.size a
  h_S1x88 : 0 < S1x88.numel
  shapeCasts_S1x88_S1x88 : S1x88.ShapeCasts S1x88
  broadcasts_S1x88_S512x88 : S1x88.Broadcasts S512x88
  inb_S88x88_S88x88_0_0 : ∀ a, (![0, 0] : Fin 2 → Nat) a + S88x88.size a ≤ S88x88.size a
  h_S88x88 : 0 < S88x88.numel
  transposes_S88x88_p1_0_S88x88 : S88x88.Transposes [1, 0] S88x88
  inb_S512x88_S512x88_0_0 : ∀ a, (![0, 0] : Fin 2 → Nat) a + S512x88.size a ≤ S512x88.size a
  h_S512x88 : 0 < S512x88.numel
  dot_S512x512_S512x2112_S512x2112_1_0_0_1_n_n_wf : DotDims.WF S512x512 S512x2112 S512x2112 [1] [0] [0] [1] [] []
  dot_S512x2112_S2112x264_S512x264_1_0_0_1_n_n_wf : DotDims.WF S512x2112 S2112x264 S512x264 [1] [0] [0] [1] [] []
  dot_S512x264_S264x2112_S512x2112_1_0_0_1_n_n_wf : DotDims.WF S512x264 S264x2112 S512x2112 [1] [0] [0] [1] [] []
  dot_S512x264_S264x264_S512x264_1_0_0_1_n_n_wf : DotDims.WF S512x264 S264x264 S512x264 [1] [0] [0] [1] [] []
  dot_S512x264_S264x88_S512x88_1_0_0_1_n_n_wf : DotDims.WF S512x264 S264x88 S512x88 [1] [0] [0] [1] [] []
  dot_S512x88_S88x88_S512x88_1_0_0_1_n_n_wf : DotDims.WF S512x88 S88x88 S512x88 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x8192.size a
  hwx0_0 : ∀ i : grid0.Coords, EltTy.bits .f32 = 32 ∨ (Rect.block (s := S4096x8192) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2112x512.size a ≤ S2112x8192.size a
  hwx0_1 : ∀ i : grid0.Coords, EltTy.bits .f32 = 32 ∨ (Rect.block (s := S2112x8192) S2112x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2112x512.size a ≤ S2112x8192.size a
  hwx0_2 : ∀ i : grid0.Coords, EltTy.bits .f32 = 32 ∨ (Rect.block (s := S2112x8192) S2112x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2112x264.size a ≤ S2112x264.size a
  hwx0_4 : ∀ i : grid0.Coords, EltTy.bits .f32 = 32 ∨ (Rect.block (s := S2112x264) S2112x264.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S264x264.size a ≤ S264x264.size a
  hwx0_5 : ∀ i : grid0.Coords, EltTy.bits .f32 = 32 ∨ (Rect.block (s := S264x264) S264x264.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x264.size a ≤ S1x264.size a
  hwx0_6 : ∀ i : grid0.Coords, EltTy.bits .f32 = 32 ∨ (Rect.block (s := S1x264) S1x264.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S88x264.size a ≤ S88x264.size a
  hwx0_7 : ∀ i : grid0.Coords, EltTy.bits .f32 = 32 ∨ (Rect.block (s := S88x264) S88x264.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x88.size a ≤ S1x88.size a
  hwx0_8 : ∀ i : grid0.Coords, EltTy.bits .f32 = 32 ∨ (Rect.block (s := S1x88) S1x88.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S88x88.size a ≤ S88x88.size a
  hwx0_9 : ∀ i : grid0.Coords, EltTy.bits .f32 = 32 ∨ (Rect.block (s := S88x88) S88x88.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x88.size a ≤ S1x88.size a
  hwx0_10 : ∀ i : grid0.Coords, EltTy.bits .f32 = 32 ∨ (Rect.block (s := S1x88) S1x88.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x88.size a ≤ S4096x88.size a
  hwx0_11 : ∀ i : grid0.Coords, EltTy.bits .f32 = 32 ∨ (Rect.block (s := S4096x88) S512x88.size (cc0_transform_11 i) (hinb0_11 i)).WholeWords (EltTy.packing .f32)

variable [Facts₀]

def dot_S512x512_S512x2112_S512x2112_1_0_0_1_n_n : DotDims S512x512 S512x2112 S512x2112 where
  lhsContracting := [1]
  rhsContracting := [0]
  lhsNonContracting := [0]
  rhsNonContracting := [1]
  lhsBatch := []
  rhsBatch := []
  wf := dot_S512x512_S512x2112_S512x2112_1_0_0_1_n_n_wf
def dot_S512x2112_S2112x264_S512x264_1_0_0_1_n_n : DotDims S512x2112 S2112x264 S512x264 where
  lhsContracting := [1]
  rhsContracting := [0]
  lhsNonContracting := [0]
  rhsNonContracting := [1]
  lhsBatch := []
  rhsBatch := []
  wf := dot_S512x2112_S2112x264_S512x264_1_0_0_1_n_n_wf
def dot_S512x264_S264x2112_S512x2112_1_0_0_1_n_n : DotDims S512x264 S264x2112 S512x2112 where
  lhsContracting := [1]
  rhsContracting := [0]
  lhsNonContracting := [0]
  rhsNonContracting := [1]
  lhsBatch := []
  rhsBatch := []
  wf := dot_S512x264_S264x2112_S512x2112_1_0_0_1_n_n_wf
def dot_S512x264_S264x264_S512x264_1_0_0_1_n_n : DotDims S512x264 S264x264 S512x264 where
  lhsContracting := [1]
  rhsContracting := [0]
  lhsNonContracting := [0]
  rhsNonContracting := [1]
  lhsBatch := []
  rhsBatch := []
  wf := dot_S512x264_S264x264_S512x264_1_0_0_1_n_n_wf
def dot_S512x264_S264x88_S512x88_1_0_0_1_n_n : DotDims S512x264 S264x88 S512x88 where
  lhsContracting := [1]
  rhsContracting := [0]
  lhsNonContracting := [0]
  rhsNonContracting := [1]
  lhsBatch := []
  rhsBatch := []
  wf := dot_S512x264_S264x88_S512x88_1_0_0_1_n_n_wf
def dot_S512x88_S88x88_S512x88_1_0_0_1_n_n : DotDims S512x88 S88x88 S512x88 where
  lhsContracting := [1]
  rhsContracting := [0]
  lhsNonContracting := [0]
  rhsNonContracting := [1]
  lhsBatch := []
  rhsBatch := []
  wf := dot_S512x88_S88x88_S512x88_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2112x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2112x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2112x264.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S264x264.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x264.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S88x264.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x88.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S88x88.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x88.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S512x88.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4096x8192 : Shape := ⟨2, ![4096, 8192]⟩
abbrev S2112x8192 : Shape := ⟨2, ![2112, 8192]⟩
abbrev S2112x264 : Shape := ⟨2, ![2112, 264]⟩
abbrev S264x264 : Shape := ⟨2, ![264, 264]⟩
abbrev S264 : Shape := ⟨1, ![264]⟩
abbrev S88x264 : Shape := ⟨2, ![88, 264]⟩
abbrev S88 : Shape := ⟨1, ![88]⟩
abbrev S88x88 : Shape := ⟨2, ![88, 88]⟩
abbrev S_ : Shape := ⟨0, ![]⟩
abbrev S4096 : Shape := ⟨1, ![4096]⟩
abbrev S4096x1 : Shape := ⟨2, ![4096, 1]⟩
abbrev S8192x2112 : Shape := ⟨2, ![8192, 2112]⟩
abbrev S4096x2112 : Shape := ⟨2, ![4096, 2112]⟩
abbrev S4096x264 : Shape := ⟨2, ![4096, 264]⟩
abbrev S264x2112 : Shape := ⟨2, ![264, 2112]⟩
abbrev S1x264 : Shape := ⟨2, ![1, 264]⟩
abbrev S264x88 : Shape := ⟨2, ![264, 88]⟩
abbrev S4096x88 : Shape := ⟨2, ![4096, 88]⟩
abbrev S1x88 : Shape := ⟨2, ![1, 88]⟩

abbrev nBuf : Space → Nat
  | .hbm => 157
  | .vmem => 0
  | .smem => 0
  | _ => 0

abbrev hbmTy0_0 (i : Nat) : BufTy := match i % 128 with
  | 0 => ⟨S4096x8192, .f32⟩
  | 1 => ⟨S4096x8192, .f32⟩
  | 2 => ⟨S2112x8192, .f32⟩
  | 3 => ⟨S2112x8192, .f32⟩
  | 4 => ⟨S2112x264, .f32⟩
  | 5 => ⟨S264x264, .f32⟩
  | 6 => ⟨S264, .f32⟩
  | 7 => ⟨S88x264, .f32⟩
  | 8 => ⟨S88, .f32⟩
  | 9 => ⟨S88x88, .f32⟩
  | 10 => ⟨S88, .f32⟩
  | 11 => ⟨S_, .f32⟩
  | 12 => ⟨S4096x8192, .f32⟩
  | 13 => ⟨S4096x8192, .i1⟩
  | 14 => ⟨S4096x8192, .i32⟩
  | 15 => ⟨S_, .i32⟩
  | 16 => ⟨S4096, .i32⟩
  | 17 => ⟨S_, .i32⟩
  | 18 => ⟨S4096, .i32⟩
  | 19 => ⟨S4096, .i32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S8192x2112, .f32⟩
  | 26 => ⟨S4096x2112, .f32⟩
  | 27 => ⟨S4096x2112, .f32⟩
  | 28 => ⟨S4096x2112, .f32⟩
  | 29 => ⟨S8192x2112, .f32⟩
  | 30 => ⟨S4096x2112, .f32⟩
  | 31 => ⟨S4096x2112, .f32⟩
  | 32 => ⟨S4096x2112, .f32⟩
  | 33 => ⟨S4096x2112, .f32⟩
  | 34 => ⟨S4096x2112, .f32⟩
  | 35 => ⟨S4096x2112, .f32⟩
  | 36 => ⟨S4096x2112, .f32⟩
  | 37 => ⟨S4096x264, .f32⟩
  | 38 => ⟨S_, .f32⟩
  | 39 => ⟨S4096x264, .f32⟩
  | 40 => ⟨S4096x264, .f32⟩
  | 41 => ⟨S_, .f32⟩
  | 42 => ⟨S4096x264, .f32⟩
  | 43 => ⟨S4096x264, .f32⟩
  | 44 => ⟨S264x2112, .f32⟩
  | 45 => ⟨S4096x2112, .f32⟩
  | 46 => ⟨S4096x2112, .f32⟩
  | 47 => ⟨S_, .f32⟩
  | 48 => ⟨S4096x2112, .f32⟩
  | 49 => ⟨S4096x2112, .f32⟩
  | 50 => ⟨S_, .f32⟩
  | 51 => ⟨S4096x2112, .f32⟩
  | 52 => ⟨S4096x2112, .f32⟩
  | 53 => ⟨S4096x2112, .f32⟩
  | 54 => ⟨S4096x264, .f32⟩
  | 55 => ⟨S_, .f32⟩
  | 56 => ⟨S4096x264, .f32⟩
  | 57 => ⟨S4096x264, .f32⟩
  | 58 => ⟨S_, .f32⟩
  | 59 => ⟨S4096x264, .f32⟩
  | 60 => ⟨S4096x264, .f32⟩
  | 61 => ⟨S4096x264, .f32⟩
  | 62 => ⟨S_, .f32⟩
  | 63 => ⟨S4096x264, .f32⟩
  | 64 => ⟨S4096x264, .f32⟩
  | 65 => ⟨S264x2112, .f32⟩
  | 66 => ⟨S4096x2112, .f32⟩
  | 67 => ⟨S4096x2112, .f32⟩
  | 68 => ⟨S_, .f32⟩
  | 69 => ⟨S4096x2112, .f32⟩
  | 70 => ⟨S4096x2112, .f32⟩
  | 71 => ⟨S_, .f32⟩
  | 72 => ⟨S4096x2112, .f32⟩
  | 73 => ⟨S4096x2112, .f32⟩
  | 74 => ⟨S4096x2112, .f32⟩
  | 75 => ⟨S4096x264, .f32⟩
  | 76 => ⟨S_, .f32⟩
  | 77 => ⟨S4096x264, .f32⟩
  | 78 => ⟨S4096x264, .f32⟩
  | 79 => ⟨S_, .f32⟩
  | 80 => ⟨S4096x264, .f32⟩
  | 81 => ⟨S4096x264, .f32⟩
  | 82 => ⟨S4096x264, .f32⟩
  | 83 => ⟨S_, .f32⟩
  | 84 => ⟨S4096x264, .f32⟩
  | 85 => ⟨S4096x264, .f32⟩
  | 86 => ⟨S264x2112, .f32⟩
  | 87 => ⟨S4096x2112, .f32⟩
  | 88 => ⟨S4096x2112, .f32⟩
  | 89 => ⟨S_, .f32⟩
  | 90 => ⟨S4096x2112, .f32⟩
  | 91 => ⟨S4096x2112, .f32⟩
  | 92 => ⟨S_, .f32⟩
  | 93 => ⟨S4096x2112, .f32⟩
  | 94 => ⟨S4096x2112, .f32⟩
  | 95 => ⟨S4096x2112, .f32⟩
  | 96 => ⟨S4096x264, .f32⟩
  | 97 => ⟨S_, .f32⟩
  | 98 => ⟨S4096x264, .f32⟩
  | 99 => ⟨S4096x264, .f32⟩
  | 100 => ⟨S_, .f32⟩
  | 101 => ⟨S4096x264, .f32⟩
  | 102 => ⟨S4096x264, .f32⟩
  | 103 => ⟨S4096x264, .f32⟩
  | 104 => ⟨S_, .f32⟩
  | 105 => ⟨S4096x264, .f32⟩
  | 106 => ⟨S4096x264, .f32⟩
  | 107 => ⟨S264x2112, .f32⟩
  | 108 => ⟨S4096x2112, .f32⟩
  | 109 => ⟨S4096x2112, .f32⟩
  | 110 => ⟨S_, .f32⟩
  | 111 => ⟨S4096x2112, .f32⟩
  | 112 => ⟨S4096x2112, .f32⟩
  | 113 => ⟨S_, .f32⟩
  | 114 => ⟨S4096x2112, .f32⟩
  | 115 => ⟨S4096x2112, .f32⟩
  | 116 => ⟨S4096x2112, .f32⟩
  | 117 => ⟨S4096x264, .f32⟩
  | 118 => ⟨S_, .f32⟩
  | 119 => ⟨S4096x264, .f32⟩
  | 120 => ⟨S4096x264, .f32⟩
  | 121 => ⟨S_, .f32⟩
  | 122 => ⟨S4096x264, .f32⟩
  | 123 => ⟨S4096x264, .f32⟩
  | 124 => ⟨S4096x264, .f32⟩
  | 125 => ⟨S_, .f32⟩
  | 126 => ⟨S4096x264, .f32⟩
  | 127 => ⟨S4096x264, .f32⟩
  | _ => ⟨S4096x8192, .f32⟩

abbrev hbmTy0_1 (i : Nat) : BufTy := match i % 128 with
  | 0 => ⟨S264x264, .f32⟩
  | 1 => ⟨S4096x264, .f32⟩
  | 2 => ⟨S1x264, .f32⟩
  | 3 => ⟨S4096x264, .f32⟩
  | 4 => ⟨S4096x264, .f32⟩
  | 5 => ⟨S_, .f32⟩
  | 6 => ⟨S4096x264, .f32⟩
  | 7 => ⟨S4096x264, .f32⟩
  | 8 => ⟨S264x88, .f32⟩
  | 9 => ⟨S4096x88, .f32⟩
  | 10 => ⟨S1x88, .f32⟩
  | 11 => ⟨S4096x88, .f32⟩
  | 12 => ⟨S4096x88, .f32⟩
  | 13 => ⟨S_, .f32⟩
  | 14 => ⟨S4096x88, .f32⟩
  | 15 => ⟨S4096x88, .f32⟩
  | 16 => ⟨S88x88, .f32⟩
  | 17 => ⟨S4096x88, .f32⟩
  | 18 => ⟨S1x88, .f32⟩
  | 19 => ⟨S4096x88, .f32⟩
  | 20 => ⟨S4096x88, .f32⟩
  | 21 => ⟨S4096x88, .f32⟩
  | 22 => ⟨S4096x88, .f32⟩
  | 23 => ⟨S_, .f32⟩
  | 24 => ⟨S4096x88, .f32⟩
  | 25 => ⟨S4096x88, .f32⟩
  | 26 => ⟨S_, .f32⟩
  | 27 => ⟨S4096x88, .f32⟩
  | 28 => ⟨S4096x88, .f32⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_c : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_v21 : Ref sig .tc := ⟨.hbm, 40, rfl⟩
abbrev main_call1_cst : Ref sig .tc := ⟨.hbm, 41, rfl⟩
abbrev main_call1_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call2_cst : Ref sig .tc := ⟨.hbm, 62, rfl⟩
abbrev main_call2_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call3_cst : Ref sig .tc := ⟨.hbm, 83, rfl⟩
abbrev main_call3_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_9 : Ref sig .tc := ⟨.hbm, 89, rfl⟩
abbrev main_v56 : Ref sig .tc := ⟨.hbm, 90, rfl⟩
abbrev main_v57 : Ref sig .tc := ⟨.hbm, 91, rfl⟩
abbrev main_cst_10 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_11 : Ref sig .tc := ⟨.hbm, 97, rfl⟩
abbrev main_v62 : Ref sig .tc := ⟨.hbm, 98, rfl⟩
abbrev main_v63 : Ref sig .tc := ⟨.hbm, 99, rfl⟩
abbrev main_cst_12 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call4_cst : Ref sig .tc := ⟨.hbm, 104, rfl⟩
abbrev main_call4_v0 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_13 : Ref sig .tc := ⟨.hbm, 110, rfl⟩
abbrev main_v71 : Ref sig .tc := ⟨.hbm, 111, rfl⟩
abbrev main_v72 : Ref sig .tc := ⟨.hbm, 112, rfl⟩
abbrev main_cst_14 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_15 : Ref sig .tc := ⟨.hbm, 118, rfl⟩
abbrev main_v77 : Ref sig .tc := ⟨.hbm, 119, rfl⟩
abbrev main_v78 : Ref sig .tc := ⟨.hbm, 120, rfl⟩
abbrev main_cst_16 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_call5_cst : Ref sig .tc := ⟨.hbm, 125, rfl⟩
abbrev main_call5_v0 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_call6_cst : Ref sig .tc := ⟨.hbm, 133, rfl⟩
abbrev main_call6_v0 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_call7_cst : Ref sig .tc := ⟨.hbm, 141, rfl⟩
abbrev main_call7_v0 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_17 : Ref sig .tc := ⟨.hbm, 151, rfl⟩
abbrev main_v102 : Ref sig .tc := ⟨.hbm, 152, rfl⟩
abbrev main_v103 : Ref sig .tc := ⟨.hbm, 153, rfl⟩
abbrev main_cst_18 : Ref sig .tc := ⟨.hbm, 154, rfl⟩
abbrev main_v104 : Ref sig .tc := ⟨.hbm, 155, rfl⟩
abbrev main_v105 : Ref sig .tc := ⟨.hbm, 156, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  natLt_1_32 : 1 < 32
  reducesTo_S4096x8192_S4096_d1 : S4096x8192.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  transposes_S2112x8192_S8192x2112_1_0 : S2112x8192.Transposes [1, 0] S8192x2112
  bcast_S4096x1_S4096x2112_0_1 : S4096x1.BroadcastsInDim S4096x2112 (![0, 1] : Fin 2 → Fin S4096x2112.rank)
  bcast_S_S4096x264 : S_.BroadcastsInDim S4096x264 (![] : Fin 0 → Fin S4096x264.rank)
  transposes_S2112x264_S264x2112_1_0 : S2112x264.Transposes [1, 0] S264x2112
  bcast_S_S4096x2112 : S_.BroadcastsInDim S4096x2112 (![] : Fin 0 → Fin S4096x2112.rank)
  transposes_S264x264_S264x264_1_0 : S264x264.Transposes [1, 0] S264x264
  bcast_S264_S1x264_1 : S264.BroadcastsInDim S1x264 (![1] : Fin 1 → Fin S1x264.rank)
  bcast_S1x264_S4096x264_0_1 : S1x264.BroadcastsInDim S4096x264 (![0, 1] : Fin 2 → Fin S4096x264.rank)
  transposes_S88x264_S264x88_1_0 : S88x264.Transposes [1, 0] S264x88
  bcast_S88_S1x88_1 : S88.BroadcastsInDim S1x88 (![1] : Fin 1 → Fin S1x88.rank)
  bcast_S1x88_S4096x88_0_1 : S1x88.BroadcastsInDim S4096x88 (![0, 1] : Fin 2 → Fin S4096x88.rank)
  bcast_S_S4096x88 : S_.BroadcastsInDim S4096x88 (![] : Fin 0 → Fin S4096x88.rank)
  transposes_S88x88_S88x88_1_0 : S88x88.Transposes [1, 0] S88x88
  dot_S4096x8192_S8192x2112_S4096x2112_1_0_0_1_n_n_wf : DotDims.WF S4096x8192 S8192x2112 S4096x2112 [1] [0] [0] [1] [] []
  dot_S4096x2112_S2112x264_S4096x264_1_0_0_1_n_n_wf : DotDims.WF S4096x2112 S2112x264 S4096x264 [1] [0] [0] [1] [] []
  dot_S4096x264_S264x2112_S4096x2112_1_0_0_1_n_n_wf : DotDims.WF S4096x264 S264x2112 S4096x2112 [1] [0] [0] [1] [] []
  dot_S4096x264_S264x264_S4096x264_1_0_0_1_n_n_wf : DotDims.WF S4096x264 S264x264 S4096x264 [1] [0] [0] [1] [] []
  dot_S4096x264_S264x88_S4096x88_1_0_0_1_n_n_wf : DotDims.WF S4096x264 S264x88 S4096x88 [1] [0] [0] [1] [] []
  dot_S4096x88_S88x88_S4096x88_1_0_0_1_n_n_wf : DotDims.WF S4096x88 S88x88 S4096x88 [1] [0] [0] [1] [] []

variable [Facts₀]

def dot_S4096x8192_S8192x2112_S4096x2112_1_0_0_1_n_n : DotDims S4096x8192 S8192x2112 S4096x2112 where
  lhsContracting := [1]
  rhsContracting := [0]
  lhsNonContracting := [0]
  rhsNonContracting := [1]
  lhsBatch := []
  rhsBatch := []
  wf := dot_S4096x8192_S8192x2112_S4096x2112_1_0_0_1_n_n_wf
def dot_S4096x2112_S2112x264_S4096x264_1_0_0_1_n_n : DotDims S4096x2112 S2112x264 S4096x264 where
  lhsContracting := [1]
  rhsContracting := [0]
  lhsNonContracting := [0]
  rhsNonContracting := [1]
  lhsBatch := []
  rhsBatch := []
  wf := dot_S4096x2112_S2112x264_S4096x264_1_0_0_1_n_n_wf
def dot_S4096x264_S264x2112_S4096x2112_1_0_0_1_n_n : DotDims S4096x264 S264x2112 S4096x2112 where
  lhsContracting := [1]
  rhsContracting := [0]
  lhsNonContracting := [0]
  rhsNonContracting := [1]
  lhsBatch := []
  rhsBatch := []
  wf := dot_S4096x264_S264x2112_S4096x2112_1_0_0_1_n_n_wf
def dot_S4096x264_S264x264_S4096x264_1_0_0_1_n_n : DotDims S4096x264 S264x264 S4096x264 where
  lhsContracting := [1]
  rhsContracting := [0]
  lhsNonContracting := [0]
  rhsNonContracting := [1]
  lhsBatch := []
  rhsBatch := []
  wf := dot_S4096x264_S264x264_S4096x264_1_0_0_1_n_n_wf
def dot_S4096x264_S264x88_S4096x88_1_0_0_1_n_n : DotDims S4096x264 S264x88 S4096x88 where
  lhsContracting := [1]
  rhsContracting := [0]
  lhsNonContracting := [0]
  rhsNonContracting := [1]
  lhsBatch := []
  rhsBatch := []
  wf := dot_S4096x264_S264x88_S4096x88_1_0_0_1_n_n_wf
def dot_S4096x88_S88x88_S4096x88_1_0_0_1_n_n : DotDims S4096x88 S88x88 S4096x88 where
  lhsContracting := [1]
  rhsContracting := [0]
  lhsNonContracting := [0]
  rhsNonContracting := [1]
  lhsBatch := []
  rhsBatch := []
  wf := dot_S4096x88_S88x88_S4096x88_1_0_0_1_n_n_wf

class Facts : Prop extends Facts₀ where

variable [Facts]
-- ==== Proof.RowSpec.lean ====
/-
  The mathematics of the two programs, row by row, on the extended reals.

  Every row `r` of the batch is processed independently.  Its spectral feature is
  `feat r j = (xc r j · s r)² + (xs r j · s r)²` where `xc r j = Σ_k X r k · Wc j k` and
  `xs r j = Σ_k X r k · Ws j k` are the correlations of the row with the two banks of
  Fourier weights and `s r` is the row's scale.  The feature row then goes through five
  rounds of an unrolled sparse-coding iteration against the dictionary `T`
  (a residual `xi` over the dictionary's rows, a non-negative code `m` over its columns)
  and through three affine layers, the last one closed by the logistic function.

  Everything after the feature depends on the feature ROW only (`head`), which is why a
  program that works on tiles of rows and a program that works on the whole batch agree.
  The only arithmetic law between the two programs is that a sum over the 8192 samples
  is the sum over 16 consecutive stretches of 512 samples of the stretch sums
  (`sum_stretches`): addition of extended reals is commutative and associative, so no
  finiteness is needed.
-/
import Idealize.ShloMosaic.PureOps.Ideal
import Idealize.ShloMosaic.PureOps.Ideal.Laws
import Mathlib.Algebra.BigOperators.Fin
import Mathlib.Logic.Equiv.Fin.Basic

noncomputable section

namespace Cert.RowSpec

open Idealize.ShloMosaic

/-- The float constants both programs spell with the same words: `0`, `-10`, `-8`, `1.6`, `0.2`, `1`. -/
abbrev kZero : EReal := Ideal.ofBits .f32 0x00000000#32
abbrev kNeg10 : EReal := Ideal.ofBits .f32 0xC1200000#32
abbrev kNeg8 : EReal := Ideal.ofBits .f32 0xC1000000#32
abbrev k16 : EReal := Ideal.ofBits .f32 0x3FCCCCCD#32
abbrev k02 : EReal := Ideal.ofBits .f32 0x3E4CCCCD#32
abbrev kOne : EReal := Ideal.ofBits .f32 0x3F800000#32

/-- The first code of a row: the positive part of `-10` times the residual's image under the dictionary. -/
def firstCode (T : Fin 2112 → Fin 264 → EReal) (xi : Fin 2112 → EReal) : Fin 264 → EReal :=
  fun c => max (kNeg10 * ∑ j, xi j * T j c) kZero

/-- The next residual: `1.6 · (m Tᵀ − feat) + 0.2 · xi`. -/
def nextResidual (T : Fin 2112 → Fin 264 → EReal) (f xi : Fin 2112 → EReal) (m : Fin 264 → EReal) :
    Fin 2112 → EReal :=
  fun j => k16 * ((∑ c, m c * T j c) - f j) + k02 * xi j

/-- The next code before its positive part is taken: `-8 · (xi T) + 0.2 · m`. -/
def nextCodePre (T : Fin 2112 → Fin 264 → EReal) (xi : Fin 2112 → EReal) (m : Fin 264 → EReal) :
    Fin 264 → EReal :=
  fun c => kNeg8 * (∑ j, xi j * T j c) + k02 * m c

/-- The next code: the positive part of `nextCodePre`. -/
def nextCode (T : Fin 2112 → Fin 264 → EReal) (xi : Fin 2112 → EReal) (m : Fin 264 → EReal) :
    Fin 264 → EReal :=
  fun c => max (nextCodePre T xi m c) kZero

/-- An affine layer `h Wᵀ + b`. -/
def affine {a b : ℕ} (W : Fin a → Fin b → EReal) (bias : Fin a → EReal) (h : Fin b → EReal) : Fin a → EReal :=
  fun o => (∑ i, h i * W o i) + bias o

/-- An affine layer followed by the positive part. -/
def affineRelu {a b : ℕ} (W : Fin a → Fin b → EReal) (bias : Fin a → EReal) (h : Fin b → EReal) : Fin a → EReal :=
  fun o => max (affine W bias h o) kZero

/-- The code after the five rounds, as a function of the feature row. -/
def code (T : Fin 2112 → Fin 264 → EReal) (f : Fin 2112 → EReal) : Fin 264 → EReal :=
  let xi0 : Fin 2112 → EReal := fun j => -(f j)
  let m0 := firstCode T xi0
  let xi1 := nextResidual T f xi0 m0
  let m1 := nextCode T xi1 m0
  let xi2 := nextResidual T f xi1 m1
  let m2 := nextCode T xi2 m1
  let xi3 := nextResidual T f xi2 m2
  let m3 := nextCode T xi3 m2
  let xi4 := nextResidual T f xi3 m3
  nextCode T xi4 m3

/-- Everything after the feature: the five rounds, two rectified affine layers, an affine layer and the logistic. -/
def head (T : Fin 2112 → Fin 264 → EReal) (W1 : Fin 264 → Fin 264 → EReal) (b1 : Fin 264 → EReal)
    (W2 : Fin 88 → Fin 264 → EReal) (b2 : Fin 88 → EReal) (Wo : Fin 88 → Fin 88 → EReal) (bo : Fin 88 → EReal)
    (f : Fin 2112 → EReal) : Fin 88 → EReal :=
  fun o => Ideal.logistic (affine Wo bo (affineRelu W2 b2 (affineRelu W1 b1 (code T f))) o)

/-- The power of a scaled pair of correlations. -/
def power (xc xs s : EReal) : EReal := (xc * s) * (xc * s) + (xs * s) * (xs * s)

/-- The correlation of row `r` of the signal with row `j` of a bank of weights. -/
def corr (X : Fin 4096 → Fin 8192 → EReal) (W : Fin 2112 → Fin 8192 → EReal) (r : Fin 4096) (j : Fin 2112) : EReal :=
  ∑ k, X r k * W j k

/-- The feature row of batch row `r`. -/
def feat (X : Fin 4096 → Fin 8192 → EReal) (Wc Ws : Fin 2112 → Fin 8192 → EReal) (s : Fin 4096 → EReal)
    (r : Fin 4096) : Fin 2112 → EReal :=
  fun j => power (corr X Wc r j) (corr X Ws r j) (s r)

/-- The whole function: row `r`, output feature `o`. -/
def result (X : Fin 4096 → Fin 8192 → EReal) (Wc Ws : Fin 2112 → Fin 8192 → EReal) (s : Fin 4096 → EReal)
    (T : Fin 2112 → Fin 264 → EReal) (W1 : Fin 264 → Fin 264 → EReal) (b1 : Fin 264 → EReal)
    (W2 : Fin 88 → Fin 264 → EReal) (b2 : Fin 88 → EReal) (Wo : Fin 88 → Fin 88 → EReal) (bo : Fin 88 → EReal)
    (r : Fin 4096) (o : Fin 88) : EReal :=
  head T W1 b1 W2 b2 Wo bo (feat X Wc Ws s r) o

/-- A sum over 8192 samples is the sum, over the 16 consecutive stretches of 512 samples, of the stretch sums. -/
theorem sum_stretches (f : Fin 8192 → EReal) (g : ℕ → Fin 512 → EReal)
    (hg : ∀ (s : ℕ) (hs : s < 16) (kk : Fin 512), g s kk = f ⟨512 * s + kk.val, by have := kk.isLt; omega⟩) :
    ∑ s ∈ Finset.range 16, ∑ kk, g s kk = ∑ k, f k := by
  rw [Finset.sum_range]
  have h1 : ∀ s : Fin 16, ∑ kk, g s.val kk
      = ∑ kk : Fin 512, f ⟨512 * s.val + kk.val, by have := kk.isLt; have := s.isLt; omega⟩ :=
    fun s => Finset.sum_congr rfl fun kk _ => hg s.val s.isLt kk
  rw [Finset.sum_congr rfl fun s _ => h1 s, ← Fintype.sum_prod_type']
  refine Fintype.sum_equiv (finProdFinEquiv (m := 16) (n := 512)) _ _ fun x => ?_
  refine congrArg f (Fin.ext ?_)
  show 512 * x.1.val + x.2.val = x.2.val + 512 * x.1.val
  omega

end Cert.RowSpec

end
-- ==== Proof.KernelSteps.lean ====
/-
  What one grid step leaves behind, as values.

  A grid step (i, k) works on the tile of 512 batch rows number i and on the stretch of 512
  samples number k.  It keeps two running tables of 512 × 2112 partial correlations (one for each
  bank of weights).  At k = 0 the tables are first cleared; at every k the products of the tile's
  samples with the weights' samples over the current stretch are added; at k = 15 the finished
  tables are turned into the tile's 512 × 88 block of results.  The lemmas below read the
  contents each kind of step leaves in the two tables and in the result block as the pure
  arithmetic of the step's inputs.
-/
import proofs.«133979_j38689065402872_1_alg».proof.Proof.Gen.KernelIdeal.Frame
import Idealize.ShloMosaic.Lib.Pipeline.Value
import Idealize.ShloMosaic.Lib.Tactic

noncomputable section

namespace Cert.KernelSteps

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

variable (c : Dev nD) (i : grid0.Coords)
  (arg2 : Memref sig .tc .vmem S512x512 .f32) (harg2 : arg2.IsWhole) (arg3 : Memref sig .tc .vmem S2112x512 .f32) (harg3 : arg3.IsWhole)
  (arg4 : Memref sig .tc .vmem S2112x512 .f32) (harg4 : arg4.IsWhole) (arg5 : Memref sig .tc .vmem S512x1 .f32) (harg5 : arg5.IsWhole)
  (arg6 : Memref sig .tc .vmem S2112x264 .f32) (harg6 : arg6.IsWhole) (arg7 : Memref sig .tc .vmem S264x264 .f32) (harg7 : arg7.IsWhole)
  (arg8 : Memref sig .tc .vmem S1x264 .f32) (harg8 : arg8.IsWhole) (arg9 : Memref sig .tc .vmem S88x264 .f32) (harg9 : arg9.IsWhole)
  (arg10 : Memref sig .tc .vmem S1x88 .f32) (harg10 : arg10.IsWhole) (arg11 : Memref sig .tc .vmem S88x88 .f32) (harg11 : arg11.IsWhole)
  (arg12 : Memref sig .tc .vmem S1x88 .f32) (harg12 : arg12.IsWhole) (arg13 : Memref sig .tc .vmem S512x88 .f32) (harg13 : arg13.IsWhole)
  (arg14 : Memref sig .tc .vmem S512x2112 .f32) (harg14 : arg14.IsWhole) (arg15 : Memref sig .tc .vmem S512x2112 .f32) (harg15 : arg15.IsWhole)
  (x0 : Vec F S512x512 .f32) (x1 : Vec F S2112x512 .f32) (x2 : Vec F S2112x512 .f32) (x3 : Vec F S512x1 .f32) (x4 : Vec F S2112x264 .f32)
  (x5 : Vec F S264x264 .f32) (x6 : Vec F S1x264 .f32) (x7 : Vec F S88x264 .f32) (x8 : Vec F S1x88 .f32) (x9 : Vec F S88x88 .f32)
  (x10 : Vec F S1x88 .f32) (xs0 xs1 : Vec F S512x2112 .f32)

/-- The first step of a tile clears the first table and adds the first stretch's products to the cleared table. -/
theorem cos_table_first (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = k0_pay4 x0 x1 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S512x2112) hz, View.readCov_unit_zero (S := S512x2112) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S2112x512) hz, View.ld_unit_zero (S := S512x2112) hz, View.ld_unit_zero (S := S512x1) hz, View.ld_unit_zero (S := S2112x264) hz, View.ld_unit_zero (S := S264x264) hz, View.ld_unit_zero (S := S1x264) hz, View.ld_unit_zero (S := S88x264) hz, View.ld_unit_zero (S := S1x88) hz, View.ld_unit_zero (S := S88x88) hz, View.ld_unit_zero (S := S512x88) hz]

/-- The first step of a tile does the same to the second table. -/
theorem sin_table_first (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = k0_pay5 x0 x2 k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S512x2112) hz, View.readCov_unit_zero (S := S512x2112) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S2112x512) hz, View.ld_unit_zero (S := S512x2112) hz, View.ld_unit_zero (S := S512x1) hz, View.ld_unit_zero (S := S2112x264) hz, View.ld_unit_zero (S := S264x264) hz, View.ld_unit_zero (S := S1x264) hz, View.ld_unit_zero (S := S88x264) hz, View.ld_unit_zero (S := S1x88) hz, View.ld_unit_zero (S := S88x88) hz, View.ld_unit_zero (S := S512x88) hz]

/-- A middle step adds the current stretch's products into the first table. -/
theorem cos_table_mid (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay4 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S2112x512) hz, View.ld_unit_zero (S := S512x2112) hz, View.ld_unit_zero (S := S512x1) hz, View.ld_unit_zero (S := S2112x264) hz, View.ld_unit_zero (S := S264x264) hz, View.ld_unit_zero (S := S1x264) hz, View.ld_unit_zero (S := S88x264) hz, View.ld_unit_zero (S := S1x88) hz, View.ld_unit_zero (S := S88x88) hz, View.ld_unit_zero (S := S512x88) hz]

/-- A middle step adds the current stretch's products into the second table. -/
theorem sin_table_mid (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay5 x0 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S2112x512) hz, View.ld_unit_zero (S := S512x2112) hz, View.ld_unit_zero (S := S512x1) hz, View.ld_unit_zero (S := S2112x264) hz, View.ld_unit_zero (S := S264x264) hz, View.ld_unit_zero (S := S1x264) hz, View.ld_unit_zero (S := S88x264) hz, View.ld_unit_zero (S := S1x88) hz, View.ld_unit_zero (S := S88x88) hz, View.ld_unit_zero (S := S512x88) hz]

/-- The last step of a tile still adds its stretch's products into the first table. -/
theorem cos_table_last (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay4 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S2112x512) hz, View.ld_unit_zero (S := S512x2112) hz, View.ld_unit_zero (S := S512x1) hz, View.ld_unit_zero (S := S2112x264) hz, View.ld_unit_zero (S := S264x264) hz, View.ld_unit_zero (S := S1x264) hz, View.ld_unit_zero (S := S88x264) hz, View.ld_unit_zero (S := S1x88) hz, View.ld_unit_zero (S := S88x88) hz, View.ld_unit_zero (S := S512x88) hz]

/-- The last step of a tile still adds its stretch's products into the second table. -/
theorem sin_table_last (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay5 x0 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S2112x512) hz, View.ld_unit_zero (S := S512x2112) hz, View.ld_unit_zero (S := S512x1) hz, View.ld_unit_zero (S := S2112x264) hz, View.ld_unit_zero (S := S264x264) hz, View.ld_unit_zero (S := S1x264) hz, View.ld_unit_zero (S := S88x264) hz, View.ld_unit_zero (S := S1x88) hz, View.ld_unit_zero (S := S88x88) hz, View.ld_unit_zero (S := S512x88) hz]

/-- The last step of a tile turns the two finished tables, the tile's scales, the dictionary and the layers'
    weights into the tile's block of results. -/
theorem result_block_last (hc0 : ¬cond0_0 i) (hc1 : cond0_1 i) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1
      = k0_pay6 (k0_pay14 (k0_pay7 x3 (k0_pay4 x0 x1 xs0) (k0_pay5 x0 x2 xs1)) x4 (k0_pay10 x3 (k0_pay4 x0 x1 xs0) (k0_pay5 x0 x2 xs1) x4) (k0_pay11 x3 (k0_pay4 x0 x1 xs0) (k0_pay5 x0 x2 xs1) x4) (k0_pay12 x3 (k0_pay4 x0 x1 xs0) (k0_pay5 x0 x2 xs1) x4) k0_pay13) x5 x6 x7 x8 x9 x10 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz]
  simp only [View.readCov_unit_zero (S := S512x2112) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz, View.ld_unit_zero (S := S2112x512) hz, View.ld_unit_zero (S := S512x2112) hz, View.ld_unit_zero (S := S512x1) hz, View.ld_unit_zero (S := S2112x264) hz, View.ld_unit_zero (S := S264x264) hz, View.ld_unit_zero (S := S1x264) hz, View.ld_unit_zero (S := S88x264) hz, View.ld_unit_zero (S := S1x88) hz, View.ld_unit_zero (S := S88x88) hz, View.ld_unit_zero (S := S512x88) hz]

end Cert.KernelSteps

end
-- ==== Proof.KernelInputs.lean ====
/-
  What a grid step's inputs are, in terms of the arrays.

  Grid step t = 16·i + k (i the tile of 512 batch rows, k the stretch of 512 samples) is handed:
  rows 512·i … 512·i + 511 and samples 512·k … 512·k + 511 of the signal; all 2112 rows and the
  same stretch of samples of the two banks of weights; the 512 scales of the tile's rows; and
  the dictionary, the three layers' weights and their biases whole.  The biases reach the kernel
  as 1 × n arrays that the host reshaped from the length-n arguments, and the scale of row r as
  8192 divided by the float conversion of (number of nonzero samples of row r) + 1.
-/
import proofs.«133979_j38689065402872_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelInputs

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- Which block of its array each window names at grid step t: decided once over the 128 steps. -/
theorem block_index : ∀ t : Fin cfg0.N,
    (win0_0.index t 0 = t.val / 16 ∧ win0_0.index t 1 = t.val % 16)
    ∧ (win0_1.index t 0 = 0 ∧ win0_1.index t 1 = t.val % 16)
    ∧ (win0_2.index t 0 = 0 ∧ win0_2.index t 1 = t.val % 16)
    ∧ (win0_3.index t 0 = t.val / 16 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = t.val / 16 ∧ win0_11.index t 1 = 0) :=
  (by decide +kernel : ∀ t : Fin grid0.N, _)

/-- The batch row that row p of tile t / 16 is. -/
def tileRow (t : Fin cfg0.N) (p : Fin 512) : Fin 4096 :=
  ⟨512 * (t.val / 16) + p.val, by have := t.isLt; have hN : cfg0.N = 128 := N_0; have := p.isLt; omega⟩

/-- The sample that sample kk of stretch t % 16 is. -/
def stretchSample (t : Fin cfg0.N) (kk : Fin 512) : Fin 8192 :=
  ⟨512 * (t.val % 16) + kk.val, by have := kk.isLt; omega⟩

/-- The blocks of the windows that move with the grid, at their literal types. -/
abbrev signalBlock (c : Dev nD) (t : Fin cfg0.N) : Vec F S512x512 .f32 := iblk m c 0 t
abbrev cosBlock (c : Dev nD) (t : Fin cfg0.N) : Vec F S2112x512 .f32 := iblk m c 1 t
abbrev sinBlock (c : Dev nD) (t : Fin cfg0.N) : Vec F S2112x512 .f32 := iblk m c 2 t
abbrev scaleBlock (c : Dev nD) (t : Fin cfg0.N) : Vec F S512x1 .f32 := iblk m c 3 t

theorem signalBlock_apply (c : Dev nD) (t : Fin cfg0.N) (p kk : Fin 512) :
    signalBlock m c t (ix2 p kk) = V m c main_arg0 (ix2 (tileRow t p) (stretchSample t kk)) := by
  have hi := (block_index t).1
  unfold signalBlock iblk
  rw [View.read_apply]
  show V m c main_arg0 _ = V m c main_arg0 _
  congr 1
  funext a
  apply Fin.ext
  match a with
  | ⟨0, _⟩ => show win0_0.index t 0 * 512 + 1 * p.val = 512 * (t.val / 16) + p.val; rw [hi.1]; omega
  | ⟨1, _⟩ => show win0_0.index t 1 * 512 + 1 * kk.val = 512 * (t.val % 16) + kk.val; rw [hi.2]; omega

theorem cosBlock_apply (c : Dev nD) (t : Fin cfg0.N) (j : Fin 2112) (kk : Fin 512) :
    cosBlock m c t (ix2 j kk) = V m c main_arg2 (ix2 j (stretchSample t kk)) := by
  have hi := (block_index t).2.1
  unfold cosBlock iblk
  rw [View.read_apply]
  show V m c main_arg2 _ = V m c main_arg2 _
  congr 1
  funext a
  apply Fin.ext
  match a with
  | ⟨0, _⟩ => show win0_1.index t 0 * 2112 + 1 * j.val = j.val; rw [hi.1]; omega
  | ⟨1, _⟩ => show win0_1.index t 1 * 512 + 1 * kk.val = 512 * (t.val % 16) + kk.val; rw [hi.2]; omega

theorem sinBlock_apply (c : Dev nD) (t : Fin cfg0.N) (j : Fin 2112) (kk : Fin 512) :
    sinBlock m c t (ix2 j kk) = V m c main_arg3 (ix2 j (stretchSample t kk)) := by
  have hi := (block_index t).2.2.1
  unfold sinBlock iblk
  rw [View.read_apply]
  show V m c main_arg3 _ = V m c main_arg3 _
  congr 1
  funext a
  apply Fin.ext
  match a with
  | ⟨0, _⟩ => show win0_2.index t 0 * 2112 + 1 * j.val = j.val; rw [hi.1]; omega
  | ⟨1, _⟩ => show win0_2.index t 1 * 512 + 1 * kk.val = 512 * (t.val % 16) + kk.val; rw [hi.2]; omega

theorem scaleBlock_apply (c : Dev nD) (t : Fin cfg0.N) (p : Fin 512) :
    scaleBlock m c t (ix2 p 0) = V m c main_v6 (ix2 (tileRow t p) 0) := by
  have hi := (block_index t).2.2.2.1
  unfold scaleBlock iblk
  rw [View.read_apply]
  show V m c main_v6 _ = V m c main_v6 _
  congr 1
  funext a
  apply Fin.ext
  match a with
  | ⟨0, _⟩ => show win0_3.index t 0 * 512 + 1 * p.val = 512 * (t.val / 16) + p.val; rw [hi.1]; omega
  | ⟨1, _⟩ => show win0_3.index t 1 * 1 + 1 * 0 = 0; rw [hi.2]

/-- The dictionary's one block is the whole dictionary. -/
theorem dictionaryBlock_eq (c : Dev nD) (t : Fin cfg0.N) : (iblk m c 4 t : Vec F S2112x264 .f32) = V m c main_arg4 := by
  have hi := (block_index t).2.2.2.2.1
  funext y
  unfold iblk
  rw [View.read_apply]
  show V m c main_arg4 _ = V m c main_arg4 y
  congr 1
  funext a
  apply Fin.ext
  match a with
  | ⟨0, _⟩ => show win0_4.index t 0 * 2112 + 1 * (y 0).val = (y 0).val; rw [hi.1]; omega
  | ⟨1, _⟩ => show win0_4.index t 1 * 264 + 1 * (y 1).val = (y 1).val; rw [hi.2]; omega

/-- The first layer's weights whole. -/
theorem w1Block_eq (c : Dev nD) (t : Fin cfg0.N) : (iblk m c 5 t : Vec F S264x264 .f32) = V m c main_arg5 := by
  have hi := (block_index t).2.2.2.2.2.1
  funext y
  unfold iblk
  rw [View.read_apply]
  show V m c main_arg5 _ = V m c main_arg5 y
  congr 1
  funext a
  apply Fin.ext
  match a with
  | ⟨0, _⟩ => show win0_5.index t 0 * 264 + 1 * (y 0).val = (y 0).val; rw [hi.1]; omega
  | ⟨1, _⟩ => show win0_5.index t 1 * 264 + 1 * (y 1).val = (y 1).val; rw [hi.2]; omega

/-- The first layer's bias row whole. -/
theorem b1Block_eq (c : Dev nD) (t : Fin cfg0.N) : (iblk m c 6 t : Vec F S1x264 .f32) = V m c main_v7 := by
  have hi := (block_index t).2.2.2.2.2.2.1
  funext y
  unfold iblk
  rw [View.read_apply]
  show V m c main_v7 _ = V m c main_v7 y
  congr 1
  funext a
  apply Fin.ext
  match a with
  | ⟨0, _⟩ => show win0_6.index t 0 * 1 + 1 * (y 0).val = (y 0).val; rw [hi.1]; omega
  | ⟨1, _⟩ => show win0_6.index t 1 * 264 + 1 * (y 1).val = (y 1).val; rw [hi.2]; omega

/-- The second layer's weights whole. -/
theorem w2Block_eq (c : Dev nD) (t : Fin cfg0.N) : (iblk m c 7 t : Vec F S88x264 .f32) = V m c main_arg7 := by
  have hi := (block_index t).2.2.2.2.2.2.2.1
  funext y
  unfold iblk
  rw [View.read_apply]
  show V m c main_arg7 _ = V m c main_arg7 y
  congr 1
  funext a
  apply Fin.ext
  match a with
  | ⟨0, _⟩ => show win0_7.index t 0 * 88 + 1 * (y 0).val = (y 0).val; rw [hi.1]; omega
  | ⟨1, _⟩ => show win0_7.index t 1 * 264 + 1 * (y 1).val = (y 1).val; rw [hi.2]; omega

/-- The second layer's bias row whole. -/
theorem b2Block_eq (c : Dev nD) (t : Fin cfg0.N) : (iblk m c 8 t : Vec F S1x88 .f32) = V m c main_v8 := by
  have hi := (block_index t).2.2.2.2.2.2.2.2.1
  funext y
  unfold iblk
  rw [View.read_apply]
  show V m c main_v8 _ = V m c main_v8 y
  congr 1
  funext a
  apply Fin.ext
  match a with
  | ⟨0, _⟩ => show win0_8.index t 0 * 1 + 1 * (y 0).val = (y 0).val; rw [hi.1]; omega
  | ⟨1, _⟩ => show win0_8.index t 1 * 88 + 1 * (y 1).val = (y 1).val; rw [hi.2]; omega

/-- The last layer's weights whole. -/
theorem woBlock_eq (c : Dev nD) (t : Fin cfg0.N) : (iblk m c 9 t : Vec F S88x88 .f32) = V m c main_arg9 := by
  have hi := (block_index t).2.2.2.2.2.2.2.2.2.1
  funext y
  unfold iblk
  rw [View.read_apply]
  show V m c main_arg9 _ = V m c main_arg9 y
  congr 1
  funext a
  apply Fin.ext
  match a with
  | ⟨0, _⟩ => show win0_9.index t 0 * 88 + 1 * (y 0).val = (y 0).val; rw [hi.1]; omega
  | ⟨1, _⟩ => show win0_9.index t 1 * 88 + 1 * (y 1).val = (y 1).val; rw [hi.2]; omega

/-- The last layer's bias row whole. -/
theorem boBlock_eq (c : Dev nD) (t : Fin cfg0.N) : (iblk m c 10 t : Vec F S1x88 .f32) = V m c main_v9 := by
  have hi := (block_index t).2.2.2.2.2.2.2.2.2.2.1
  funext y
  unfold iblk
  rw [View.read_apply]
  show V m c main_v9 _ = V m c main_v9 y
  congr 1
  funext a
  apply Fin.ext
  match a with
  | ⟨0, _⟩ => show win0_10.index t 0 * 1 + 1 * (y 0).val = (y 0).val; rw [hi.1]; omega
  | ⟨1, _⟩ => show win0_10.index t 1 * 88 + 1 * (y 1).val = (y 1).val; rw [hi.2]; omega

/-! ## What the host put in the arrays the kernel reads -/

/-- The float conversion of (the number of nonzero samples of each row) + 1, as the host operations before the
    kernel compute it from the signal: one function of the signal, which is never opened. -/
def rowCounts (x : Vec F S4096x8192 .f32) : Vec F S4096 .f32 :=
  sitofp .f32 (addi (Host.reduce IntOp.addi (extui 32 (cmpf .une x (broadcastInDim S4096x8192 ![] bcast_S_S4096x8192 (constant (F := F) S_ .f32 0x00000000#32))) natLt_1_32) (constantI S_ 32 0#32) reducesTo_S4096x8192_S4096_d1 h_S_) (broadcastInDim S4096 ![] bcast_S_S4096 (constantI S_ 32 1#32)))

theorem scaleArray_eq (c : Dev nD) :
    (V m c main_v6 : Vec F S4096x1 .f32)
      = broadcastInDim S4096x1 ![0] bcast_S4096_S4096x1_0 (Host.divf (broadcastInDim S4096 ![] bcast_S_S4096 (constant (F := F) S_ .f32 0x46000000#32)) (rowCounts (m ((c : Thread nD τ).loc main_arg0)))) := by
  dsimp only [V]
  simp only [hostOps0, hostOps0_1, List.flatten_cons, List.flatten_nil, List.append_nil, List.cons_append, List.nil_append]
  after_results
  unfold rowCounts
  simp only [StableHlo.TRef.ofBuf, StableHlo.TRef.toBuf, cast_eq]

theorem b1Array_eq (c : Dev nD) :
    (V m c main_v7 : Vec F S1x264 .f32) = shapeCast S1x264 (m ((c : Thread nD τ).loc main_arg6)) shapeCasts_S264_S1x264 := by
  dsimp only [V]
  simp only [hostOps0, hostOps0_1, List.flatten_cons, List.flatten_nil, List.append_nil, List.cons_append, List.nil_append]
  after_results
  rfl

theorem b2Array_eq (c : Dev nD) :
    (V m c main_v8 : Vec F S1x88 .f32) = shapeCast S1x88 (m ((c : Thread nD τ).loc main_arg8)) shapeCasts_S88_S1x88 := by
  dsimp only [V]
  simp only [hostOps0, hostOps0_1, List.flatten_cons, List.flatten_nil, List.append_nil, List.cons_append, List.nil_append]
  after_results
  rfl

theorem boArray_eq (c : Dev nD) :
    (V m c main_v9 : Vec F S1x88 .f32) = shapeCast S1x88 (m ((c : Thread nD τ).loc main_arg10)) shapeCasts_S88_S1x88 := by
  dsimp only [V]
  simp only [hostOps0, hostOps0_1, List.flatten_cons, List.flatten_nil, List.append_nil, List.cons_append, List.nil_append]
  after_results
  rfl

end Cert.KernelInputs

/-! ## The same, element by element, on the extended reals -/

namespace Cert.KernelInputs

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The scale of batch row r: 8192 over the row's count. -/
theorem scale_apply (c : Dev nD) (r : Fin 4096) :
    V m c main_v6 (ix2 r (0 : Fin 1))
      = Ideal.div (Ideal.ofBits .f32 0x46000000#32) (rowCounts (F := Ideal) (m ((c : Thread nD τ).loc main_arg0)) (ix1 r)) := by
  rw [scaleArray_eq]
  refine (broadcastInDim_apply _ bcast_S4096_S4096x1_0 _ (ix2 r (0 : Fin 1)) (ix1 r) (fun a => ?_)).trans ?_
  · match a with
    | ⟨0, _⟩ => rfl
  · show Ideal.div (broadcastInDim S4096 ![] bcast_S_S4096 (constant (F := Ideal) S_ .f32 0x46000000#32) (ix1 r)) _ = _
    rw [broadcastInDim_apply _ bcast_S_S4096 _ (ix1 r) ix0 (fun a => a.elim0)]
    rfl

theorem b1_apply (c : Dev nD) (a : Fin 264) : V m c main_v7 (ix2 (0 : Fin 1) a) = m ((c : Thread nD τ).loc main_arg6) (ix1 a) := by
  rw [b1Array_eq]; exact shapeCast_a_1a_apply _ _ 0 a

theorem b2_apply (c : Dev nD) (a : Fin 88) : V m c main_v8 (ix2 (0 : Fin 1) a) = m ((c : Thread nD τ).loc main_arg8) (ix1 a) := by
  rw [b2Array_eq]; exact shapeCast_a_1a_apply _ _ 0 a

theorem bo_apply (c : Dev nD) (a : Fin 88) : V m c main_v9 (ix2 (0 : Fin 1) a) = m ((c : Thread nD τ).loc main_arg10) (ix1 a) := by
  rw [boArray_eq]; exact shapeCast_a_1a_apply _ _ 0 a

end Cert.KernelInputs

end
-- ==== Proof.KernelHead.lean ====
/-
  The kernel's arithmetic read at an index.

  Every value the kernel body stores is a pure function of the values it loaded.  Read at one
  element `(p, j)` of a tile, each of these functions is a short expression on the extended reals:
  a matrix product is a finite sum over the contracted axis, a transpose swaps the two
  coordinates, a broadcast of a row or a column forgets one coordinate, and the elementwise
  operations act on the elements.  Row `p` of the tile is treated on its own: the scaled power of
  the two accumulated correlations is the feature row, and everything after it is the row
  function `Cert.RowSpec.head` of that feature row.
-/
import proofs.«133979_j38689065402872_1_alg».proof.Proof.Gen.KernelIdeal.Skeleton
import proofs.«133979_j38689065402872_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelSide

open Cert.KernelIdeal Cert.KernelIdeal.Gen Idealize.ShloMosaic Idealize.ShloMosaic.ValueIdx
open scoped BigOperators

/-! ## The six matrix products as sums over the contracted axis -/

/-! ### `[512,512] · [512,2112]` -/

theorem lhs_a_0 (i : S512x2112.Idx) (q : dot_S512x512_S512x2112_S512x2112_1_0_0_1_n_n.contr.Idx) :
    (dot_S512x512_S512x2112_S512x2112_1_0_0_1_n_n.lhsIdx i q 0).val = (i 0).val := by
  unfold DotDims.lhsIdx
  rw [dif_neg (show ¬(0 : Fin S512x512.rank) ∈ dot_S512x512_S512x2112_S512x2112_1_0_0_1_n_n.lhsBatch by decide), dif_pos (show (0 : Fin S512x512.rank) ∈ dot_S512x512_S512x2112_S512x2112_1_0_0_1_n_n.lhsNonContracting by decide)]
  rfl
theorem lhs_a_1 (i : S512x2112.Idx) (q : dot_S512x512_S512x2112_S512x2112_1_0_0_1_n_n.contr.Idx) :
    (dot_S512x512_S512x2112_S512x2112_1_0_0_1_n_n.lhsIdx i q 1).val = (q ⟨0, by decide⟩).val :=
  dot_S512x512_S512x2112_S512x2112_1_0_0_1_n_n.lhsIdx_val_of_single rfl i q
theorem rhs_a_0 (i : S512x2112.Idx) (q : dot_S512x512_S512x2112_S512x2112_1_0_0_1_n_n.contr.Idx) :
    (dot_S512x512_S512x2112_S512x2112_1_0_0_1_n_n.rhsIdx i q 0).val = (q ⟨0, by decide⟩).val :=
  dot_S512x512_S512x2112_S512x2112_1_0_0_1_n_n.rhsIdx_val_of_single rfl i q
theorem rhs_a_1 (i : S512x2112.Idx) (q : dot_S512x512_S512x2112_S512x2112_1_0_0_1_n_n.contr.Idx) :
    (dot_S512x512_S512x2112_S512x2112_1_0_0_1_n_n.rhsIdx i q 1).val = (i 1).val := by
  unfold DotDims.rhsIdx
  rw [dif_neg (show ¬(1 : Fin S512x2112.rank) ∈ dot_S512x512_S512x2112_S512x2112_1_0_0_1_n_n.rhsBatch by decide), dif_pos (show (1 : Fin S512x2112.rank) ∈ dot_S512x512_S512x2112_S512x2112_1_0_0_1_n_n.rhsNonContracting by decide)]
  rfl
/-- The product of a `[512,512]` block with a `[512,2112]` block into the zero accumulator. -/
theorem mm_a_apply (l : FVec Ideal S512x512 .bf16) (r : FVec Ideal S512x2112 .bf16) (p : Fin 512) (q : Fin 2112) :
    matmul dot_S512x512_S512x2112_S512x2112_1_0_0_1_n_n none l r (constant (F := Ideal) S512x2112 .f32 0x00000000#32) (ix2 p q)
      = ∑ k : Fin 512, l (ix2 p k) * r (ix2 k q) := by
  refine (Ideal.matmul_constant_zero_apply dot_S512x512_S512x2112_S512x2112_1_0_0_1_n_n none l r (ix2 p q)).trans ?_
  rw [← Equiv.sum_comp (contrEquiv1 dot_S512x512_S512x2112_S512x2112_1_0_0_1_n_n 512 rfl rfl).symm]
  refine Finset.sum_congr rfl fun k _ => ?_
  have hk := contrEquiv1_symm_val dot_S512x512_S512x2112_S512x2112_1_0_0_1_n_n 512 rfl rfl k
  have el : dot_S512x512_S512x2112_S512x2112_1_0_0_1_n_n.lhsIdx (ix2 p q) ((contrEquiv1 dot_S512x512_S512x2112_S512x2112_1_0_0_1_n_n 512 rfl rfl).symm k) = ix2 p k := funext fun a => Fin.ext (by
    match a with
    | ⟨0, _⟩ => exact lhs_a_0 _ _
    | ⟨1, _⟩ => exact (lhs_a_1 _ _).trans hk)
  have er : dot_S512x512_S512x2112_S512x2112_1_0_0_1_n_n.rhsIdx (ix2 p q) ((contrEquiv1 dot_S512x512_S512x2112_S512x2112_1_0_0_1_n_n 512 rfl rfl).symm k) = ix2 k q := funext fun a => Fin.ext (by
    match a with
    | ⟨0, _⟩ => exact (rhs_a_0 _ _).trans hk
    | ⟨1, _⟩ => exact rhs_a_1 _ _)
  rw [el, er]

/-! ### `[512,2112] · [2112,264]` -/

theorem lhs_b_0 (i : S512x264.Idx) (q : dot_S512x2112_S2112x264_S512x264_1_0_0_1_n_n.contr.Idx) :
    (dot_S512x2112_S2112x264_S512x264_1_0_0_1_n_n.lhsIdx i q 0).val = (i 0).val := by
  unfold DotDims.lhsIdx
  rw [dif_neg (show ¬(0 : Fin S512x2112.rank) ∈ dot_S512x2112_S2112x264_S512x264_1_0_0_1_n_n.lhsBatch by decide), dif_pos (show (0 : Fin S512x2112.rank) ∈ dot_S512x2112_S2112x264_S512x264_1_0_0_1_n_n.lhsNonContracting by decide)]
  rfl
theorem lhs_b_1 (i : S512x264.Idx) (q : dot_S512x2112_S2112x264_S512x264_1_0_0_1_n_n.contr.Idx) :
    (dot_S512x2112_S2112x264_S512x264_1_0_0_1_n_n.lhsIdx i q 1).val = (q ⟨0, by decide⟩).val :=
  dot_S512x2112_S2112x264_S512x264_1_0_0_1_n_n.lhsIdx_val_of_single rfl i q
theorem rhs_b_0 (i : S512x264.Idx) (q : dot_S512x2112_S2112x264_S512x264_1_0_0_1_n_n.contr.Idx) :
    (dot_S512x2112_S2112x264_S512x264_1_0_0_1_n_n.rhsIdx i q 0).val = (q ⟨0, by decide⟩).val :=
  dot_S512x2112_S2112x264_S512x264_1_0_0_1_n_n.rhsIdx_val_of_single rfl i q
theorem rhs_b_1 (i : S512x264.Idx) (q : dot_S512x2112_S2112x264_S512x264_1_0_0_1_n_n.contr.Idx) :
    (dot_S512x2112_S2112x264_S512x264_1_0_0_1_n_n.rhsIdx i q 1).val = (i 1).val := by
  unfold DotDims.rhsIdx
  rw [dif_neg (show ¬(1 : Fin S2112x264.rank) ∈ dot_S512x2112_S2112x264_S512x264_1_0_0_1_n_n.rhsBatch by decide), dif_pos (show (1 : Fin S2112x264.rank) ∈ dot_S512x2112_S2112x264_S512x264_1_0_0_1_n_n.rhsNonContracting by decide)]
  rfl
/-- The product of a `[512,2112]` block with the `[2112,264]` dictionary into the zero accumulator. -/
theorem mm_b_apply (l : FVec Ideal S512x2112 .f32) (r : FVec Ideal S2112x264 .f32) (p : Fin 512) (q : Fin 264) :
    matmul dot_S512x2112_S2112x264_S512x264_1_0_0_1_n_n none l r (constant (F := Ideal) S512x264 .f32 0x00000000#32) (ix2 p q)
      = ∑ k : Fin 2112, l (ix2 p k) * r (ix2 k q) := by
  refine (Ideal.matmul_constant_zero_apply dot_S512x2112_S2112x264_S512x264_1_0_0_1_n_n none l r (ix2 p q)).trans ?_
  rw [← Equiv.sum_comp (contrEquiv1 dot_S512x2112_S2112x264_S512x264_1_0_0_1_n_n 2112 rfl rfl).symm]
  refine Finset.sum_congr rfl fun k _ => ?_
  have hk := contrEquiv1_symm_val dot_S512x2112_S2112x264_S512x264_1_0_0_1_n_n 2112 rfl rfl k
  have el : dot_S512x2112_S2112x264_S512x264_1_0_0_1_n_n.lhsIdx (ix2 p q) ((contrEquiv1 dot_S512x2112_S2112x264_S512x264_1_0_0_1_n_n 2112 rfl rfl).symm k) = ix2 p k := funext fun a => Fin.ext (by
    match a with
    | ⟨0, _⟩ => exact lhs_b_0 _ _
    | ⟨1, _⟩ => exact (lhs_b_1 _ _).trans hk)
  have er : dot_S512x2112_S2112x264_S512x264_1_0_0_1_n_n.rhsIdx (ix2 p q) ((contrEquiv1 dot_S512x2112_S2112x264_S512x264_1_0_0_1_n_n 2112 rfl rfl).symm k) = ix2 k q := funext fun a => Fin.ext (by
    match a with
    | ⟨0, _⟩ => exact (rhs_b_0 _ _).trans hk
    | ⟨1, _⟩ => exact rhs_b_1 _ _)
  rw [el, er]

/-! ### `[512,264] · [264,2112]` -/

theorem lhs_c_0 (i : S512x2112.Idx) (q : dot_S512x264_S264x2112_S512x2112_1_0_0_1_n_n.contr.Idx) :
    (dot_S512x264_S264x2112_S512x2112_1_0_0_1_n_n.lhsIdx i q 0).val = (i 0).val := by
  unfold DotDims.lhsIdx
  rw [dif_neg (show ¬(0 : Fin S512x264.rank) ∈ dot_S512x264_S264x2112_S512x2112_1_0_0_1_n_n.lhsBatch by decide), dif_pos (show (0 : Fin S512x264.rank) ∈ dot_S512x264_S264x2112_S512x2112_1_0_0_1_n_n.lhsNonContracting by decide)]
  rfl
theorem lhs_c_1 (i : S512x2112.Idx) (q : dot_S512x264_S264x2112_S512x2112_1_0_0_1_n_n.contr.Idx) :
    (dot_S512x264_S264x2112_S512x2112_1_0_0_1_n_n.lhsIdx i q 1).val = (q ⟨0, by decide⟩).val :=
  dot_S512x264_S264x2112_S512x2112_1_0_0_1_n_n.lhsIdx_val_of_single rfl i q
theorem rhs_c_0 (i : S512x2112.Idx) (q : dot_S512x264_S264x2112_S512x2112_1_0_0_1_n_n.contr.Idx) :
    (dot_S512x264_S264x2112_S512x2112_1_0_0_1_n_n.rhsIdx i q 0).val = (q ⟨0, by decide⟩).val :=
  dot_S512x264_S264x2112_S512x2112_1_0_0_1_n_n.rhsIdx_val_of_single rfl i q
theorem rhs_c_1 (i : S512x2112.Idx) (q : dot_S512x264_S264x2112_S512x2112_1_0_0_1_n_n.contr.Idx) :
    (dot_S512x264_S264x2112_S512x2112_1_0_0_1_n_n.rhsIdx i q 1).val = (i 1).val := by
  unfold DotDims.rhsIdx
  rw [dif_neg (show ¬(1 : Fin S264x2112.rank) ∈ dot_S512x264_S264x2112_S512x2112_1_0_0_1_n_n.rhsBatch by decide), dif_pos (show (1 : Fin S264x2112.rank) ∈ dot_S512x264_S264x2112_S512x2112_1_0_0_1_n_n.rhsNonContracting by decide)]
  rfl
/-- The product of a `[512,264]` code block with the transposed dictionary `[264,2112]` into the zero accumulator. -/
theorem mm_c_apply (l : FVec Ideal S512x264 .f32) (r : FVec Ideal S264x2112 .f32) (p : Fin 512) (q : Fin 2112) :
    matmul dot_S512x264_S264x2112_S512x2112_1_0_0_1_n_n none l r (constant (F := Ideal) S512x2112 .f32 0x00000000#32) (ix2 p q)
      = ∑ k : Fin 264, l (ix2 p k) * r (ix2 k q) := by
  refine (Ideal.matmul_constant_zero_apply dot_S512x264_S264x2112_S512x2112_1_0_0_1_n_n none l r (ix2 p q)).trans ?_
  rw [← Equiv.sum_comp (contrEquiv1 dot_S512x264_S264x2112_S512x2112_1_0_0_1_n_n 264 rfl rfl).symm]
  refine Finset.sum_congr rfl fun k _ => ?_
  have hk := contrEquiv1_symm_val dot_S512x264_S264x2112_S512x2112_1_0_0_1_n_n 264 rfl rfl k
  have el : dot_S512x264_S264x2112_S512x2112_1_0_0_1_n_n.lhsIdx (ix2 p q) ((contrEquiv1 dot_S512x264_S264x2112_S512x2112_1_0_0_1_n_n 264 rfl rfl).symm k) = ix2 p k := funext fun a => Fin.ext (by
    match a with
    | ⟨0, _⟩ => exact lhs_c_0 _ _
    | ⟨1, _⟩ => exact (lhs_c_1 _ _).trans hk)
  have er : dot_S512x264_S264x2112_S512x2112_1_0_0_1_n_n.rhsIdx (ix2 p q) ((contrEquiv1 dot_S512x264_S264x2112_S512x2112_1_0_0_1_n_n 264 rfl rfl).symm k) = ix2 k q := funext fun a => Fin.ext (by
    match a with
    | ⟨0, _⟩ => exact (rhs_c_0 _ _).trans hk
    | ⟨1, _⟩ => exact rhs_c_1 _ _)
  rw [el, er]

/-! ### `[512,264] · [264,264]` -/

theorem lhs_d_0 (i : S512x264.Idx) (q : dot_S512x264_S264x264_S512x264_1_0_0_1_n_n.contr.Idx) :
    (dot_S512x264_S264x264_S512x264_1_0_0_1_n_n.lhsIdx i q 0).val = (i 0).val := by
  unfold DotDims.lhsIdx
  rw [dif_neg (show ¬(0 : Fin S512x264.rank) ∈ dot_S512x264_S264x264_S512x264_1_0_0_1_n_n.lhsBatch by decide), dif_pos (show (0 : Fin S512x264.rank) ∈ dot_S512x264_S264x264_S512x264_1_0_0_1_n_n.lhsNonContracting by decide)]
  rfl
theorem lhs_d_1 (i : S512x264.Idx) (q : dot_S512x264_S264x264_S512x264_1_0_0_1_n_n.contr.Idx) :
    (dot_S512x264_S264x264_S512x264_1_0_0_1_n_n.lhsIdx i q 1).val = (q ⟨0, by decide⟩).val :=
  dot_S512x264_S264x264_S512x264_1_0_0_1_n_n.lhsIdx_val_of_single rfl i q
theorem rhs_d_0 (i : S512x264.Idx) (q : dot_S512x264_S264x264_S512x264_1_0_0_1_n_n.contr.Idx) :
    (dot_S512x264_S264x264_S512x264_1_0_0_1_n_n.rhsIdx i q 0).val = (q ⟨0, by decide⟩).val :=
  dot_S512x264_S264x264_S512x264_1_0_0_1_n_n.rhsIdx_val_of_single rfl i q
theorem rhs_d_1 (i : S512x264.Idx) (q : dot_S512x264_S264x264_S512x264_1_0_0_1_n_n.contr.Idx) :
    (dot_S512x264_S264x264_S512x264_1_0_0_1_n_n.rhsIdx i q 1).val = (i 1).val := by
  unfold DotDims.rhsIdx
  rw [dif_neg (show ¬(1 : Fin S264x264.rank) ∈ dot_S512x264_S264x264_S512x264_1_0_0_1_n_n.rhsBatch by decide), dif_pos (show (1 : Fin S264x264.rank) ∈ dot_S512x264_S264x264_S512x264_1_0_0_1_n_n.rhsNonContracting by decide)]
  rfl
/-- The product of a `[512,264]` block with a `[264,264]` matrix into the zero accumulator. -/
theorem mm_d_apply (l : FVec Ideal S512x264 .f32) (r : FVec Ideal S264x264 .f32) (p : Fin 512) (q : Fin 264) :
    matmul dot_S512x264_S264x264_S512x264_1_0_0_1_n_n none l r (constant (F := Ideal) S512x264 .f32 0x00000000#32) (ix2 p q)
      = ∑ k : Fin 264, l (ix2 p k) * r (ix2 k q) := by
  refine (Ideal.matmul_constant_zero_apply dot_S512x264_S264x264_S512x264_1_0_0_1_n_n none l r (ix2 p q)).trans ?_
  rw [← Equiv.sum_comp (contrEquiv1 dot_S512x264_S264x264_S512x264_1_0_0_1_n_n 264 rfl rfl).symm]
  refine Finset.sum_congr rfl fun k _ => ?_
  have hk := contrEquiv1_symm_val dot_S512x264_S264x264_S512x264_1_0_0_1_n_n 264 rfl rfl k
  have el : dot_S512x264_S264x264_S512x264_1_0_0_1_n_n.lhsIdx (ix2 p q) ((contrEquiv1 dot_S512x264_S264x264_S512x264_1_0_0_1_n_n 264 rfl rfl).symm k) = ix2 p k := funext fun a => Fin.ext (by
    match a with
    | ⟨0, _⟩ => exact lhs_d_0 _ _
    | ⟨1, _⟩ => exact (lhs_d_1 _ _).trans hk)
  have er : dot_S512x264_S264x264_S512x264_1_0_0_1_n_n.rhsIdx (ix2 p q) ((contrEquiv1 dot_S512x264_S264x264_S512x264_1_0_0_1_n_n 264 rfl rfl).symm k) = ix2 k q := funext fun a => Fin.ext (by
    match a with
    | ⟨0, _⟩ => exact (rhs_d_0 _ _).trans hk
    | ⟨1, _⟩ => exact rhs_d_1 _ _)
  rw [el, er]

/-! ### `[512,264] · [264,88]` -/

theorem lhs_e_0 (i : S512x88.Idx) (q : dot_S512x264_S264x88_S512x88_1_0_0_1_n_n.contr.Idx) :
    (dot_S512x264_S264x88_S512x88_1_0_0_1_n_n.lhsIdx i q 0).val = (i 0).val := by
  unfold DotDims.lhsIdx
  rw [dif_neg (show ¬(0 : Fin S512x264.rank) ∈ dot_S512x264_S264x88_S512x88_1_0_0_1_n_n.lhsBatch by decide), dif_pos (show (0 : Fin S512x264.rank) ∈ dot_S512x264_S264x88_S512x88_1_0_0_1_n_n.lhsNonContracting by decide)]
  rfl
theorem lhs_e_1 (i : S512x88.Idx) (q : dot_S512x264_S264x88_S512x88_1_0_0_1_n_n.contr.Idx) :
    (dot_S512x264_S264x88_S512x88_1_0_0_1_n_n.lhsIdx i q 1).val = (q ⟨0, by decide⟩).val :=
  dot_S512x264_S264x88_S512x88_1_0_0_1_n_n.lhsIdx_val_of_single rfl i q
theorem rhs_e_0 (i : S512x88.Idx) (q : dot_S512x264_S264x88_S512x88_1_0_0_1_n_n.contr.Idx) :
    (dot_S512x264_S264x88_S512x88_1_0_0_1_n_n.rhsIdx i q 0).val = (q ⟨0, by decide⟩).val :=
  dot_S512x264_S264x88_S512x88_1_0_0_1_n_n.rhsIdx_val_of_single rfl i q
theorem rhs_e_1 (i : S512x88.Idx) (q : dot_S512x264_S264x88_S512x88_1_0_0_1_n_n.contr.Idx) :
    (dot_S512x264_S264x88_S512x88_1_0_0_1_n_n.rhsIdx i q 1).val = (i 1).val := by
  unfold DotDims.rhsIdx
  rw [dif_neg (show ¬(1 : Fin S264x88.rank) ∈ dot_S512x264_S264x88_S512x88_1_0_0_1_n_n.rhsBatch by decide), dif_pos (show (1 : Fin S264x88.rank) ∈ dot_S512x264_S264x88_S512x88_1_0_0_1_n_n.rhsNonContracting by decide)]
  rfl
/-- The product of a `[512,264]` block with a `[264,88]` matrix into the zero accumulator. -/
theorem mm_e_apply (l : FVec Ideal S512x264 .f32) (r : FVec Ideal S264x88 .f32) (p : Fin 512) (q : Fin 88) :
    matmul dot_S512x264_S264x88_S512x88_1_0_0_1_n_n none l r (constant (F := Ideal) S512x88 .f32 0x00000000#32) (ix2 p q)
      = ∑ k : Fin 264, l (ix2 p k) * r (ix2 k q) := by
  refine (Ideal.matmul_constant_zero_apply dot_S512x264_S264x88_S512x88_1_0_0_1_n_n none l r (ix2 p q)).trans ?_
  rw [← Equiv.sum_comp (contrEquiv1 dot_S512x264_S264x88_S512x88_1_0_0_1_n_n 264 rfl rfl).symm]
  refine Finset.sum_congr rfl fun k _ => ?_
  have hk := contrEquiv1_symm_val dot_S512x264_S264x88_S512x88_1_0_0_1_n_n 264 rfl rfl k
  have el : dot_S512x264_S264x88_S512x88_1_0_0_1_n_n.lhsIdx (ix2 p q) ((contrEquiv1 dot_S512x264_S264x88_S512x88_1_0_0_1_n_n 264 rfl rfl).symm k) = ix2 p k := funext fun a => Fin.ext (by
    match a with
    | ⟨0, _⟩ => exact lhs_e_0 _ _
    | ⟨1, _⟩ => exact (lhs_e_1 _ _).trans hk)
  have er : dot_S512x264_S264x88_S512x88_1_0_0_1_n_n.rhsIdx (ix2 p q) ((contrEquiv1 dot_S512x264_S264x88_S512x88_1_0_0_1_n_n 264 rfl rfl).symm k) = ix2 k q := funext fun a => Fin.ext (by
    match a with
    | ⟨0, _⟩ => exact (rhs_e_0 _ _).trans hk
    | ⟨1, _⟩ => exact rhs_e_1 _ _)
  rw [el, er]

/-! ### `[512,88] · [88,88]` -/

theorem lhs_f_0 (i : S512x88.Idx) (q : dot_S512x88_S88x88_S512x88_1_0_0_1_n_n.contr.Idx) :
    (dot_S512x88_S88x88_S512x88_1_0_0_1_n_n.lhsIdx i q 0).val = (i 0).val := by
  unfold DotDims.lhsIdx
  rw [dif_neg (show ¬(0 : Fin S512x88.rank) ∈ dot_S512x88_S88x88_S512x88_1_0_0_1_n_n.lhsBatch by decide), dif_pos (show (0 : Fin S512x88.rank) ∈ dot_S512x88_S88x88_S512x88_1_0_0_1_n_n.lhsNonContracting by decide)]
  rfl
theorem lhs_f_1 (i : S512x88.Idx) (q : dot_S512x88_S88x88_S512x88_1_0_0_1_n_n.contr.Idx) :
    (dot_S512x88_S88x88_S512x88_1_0_0_1_n_n.lhsIdx i q 1).val = (q ⟨0, by decide⟩).val :=
  dot_S512x88_S88x88_S512x88_1_0_0_1_n_n.lhsIdx_val_of_single rfl i q
theorem rhs_f_0 (i : S512x88.Idx) (q : dot_S512x88_S88x88_S512x88_1_0_0_1_n_n.contr.Idx) :
    (dot_S512x88_S88x88_S512x88_1_0_0_1_n_n.rhsIdx i q 0).val = (q ⟨0, by decide⟩).val :=
  dot_S512x88_S88x88_S512x88_1_0_0_1_n_n.rhsIdx_val_of_single rfl i q
theorem rhs_f_1 (i : S512x88.Idx) (q : dot_S512x88_S88x88_S512x88_1_0_0_1_n_n.contr.Idx) :
    (dot_S512x88_S88x88_S512x88_1_0_0_1_n_n.rhsIdx i q 1).val = (i 1).val := by
  unfold DotDims.rhsIdx
  rw [dif_neg (show ¬(1 : Fin S88x88.rank) ∈ dot_S512x88_S88x88_S512x88_1_0_0_1_n_n.rhsBatch by decide), dif_pos (show (1 : Fin S88x88.rank) ∈ dot_S512x88_S88x88_S512x88_1_0_0_1_n_n.rhsNonContracting by decide)]
  rfl
/-- The product of a `[512,88]` block with an `[88,88]` matrix into the zero accumulator. -/
theorem mm_f_apply (l : FVec Ideal S512x88 .f32) (r : FVec Ideal S88x88 .f32) (p : Fin 512) (q : Fin 88) :
    matmul dot_S512x88_S88x88_S512x88_1_0_0_1_n_n none l r (constant (F := Ideal) S512x88 .f32 0x00000000#32) (ix2 p q)
      = ∑ k : Fin 88, l (ix2 p k) * r (ix2 k q) := by
  refine (Ideal.matmul_constant_zero_apply dot_S512x88_S88x88_S512x88_1_0_0_1_n_n none l r (ix2 p q)).trans ?_
  rw [← Equiv.sum_comp (contrEquiv1 dot_S512x88_S88x88_S512x88_1_0_0_1_n_n 88 rfl rfl).symm]
  refine Finset.sum_congr rfl fun k _ => ?_
  have hk := contrEquiv1_symm_val dot_S512x88_S88x88_S512x88_1_0_0_1_n_n 88 rfl rfl k
  have el : dot_S512x88_S88x88_S512x88_1_0_0_1_n_n.lhsIdx (ix2 p q) ((contrEquiv1 dot_S512x88_S88x88_S512x88_1_0_0_1_n_n 88 rfl rfl).symm k) = ix2 p k := funext fun a => Fin.ext (by
    match a with
    | ⟨0, _⟩ => exact lhs_f_0 _ _
    | ⟨1, _⟩ => exact (lhs_f_1 _ _).trans hk)
  have er : dot_S512x88_S88x88_S512x88_1_0_0_1_n_n.rhsIdx (ix2 p q) ((contrEquiv1 dot_S512x88_S88x88_S512x88_1_0_0_1_n_n 88 rfl rfl).symm k) = ix2 k q := funext fun a => Fin.ext (by
    match a with
    | ⟨0, _⟩ => exact (rhs_f_0 _ _).trans hk
    | ⟨1, _⟩ => exact rhs_f_1 _ _)
  rw [el, er]

/-! ## Layout operations and the elementwise operations at an element -/

/-- A bank of weights `[2112,512]` transposed reads, at `(k, j)`, the bank at `(j, k)`. -/
theorem tr_w_apply (x : FVec Ideal S2112x512 .bf16) (k : Fin 512) (j : Fin 2112) :
    transpose S512x2112 [1, 0] x transposes_S2112x512_p1_0_S512x2112 (ix2 k j) = x (ix2 j k) :=
  transpose_ix2_apply x transposes_S2112x512_p1_0_S512x2112 k j

/-- The dictionary `[2112,264]` transposed reads, at `(c, j)`, the dictionary at `(j, c)`. -/
theorem tr_T_apply (x : FVec Ideal S2112x264 .f32) (c : Fin 264) (j : Fin 2112) :
    transpose S264x2112 [1, 0] x transposes_S2112x264_p1_0_S264x2112 (ix2 c j) = x (ix2 j c) :=
  transpose_ix2_apply x transposes_S2112x264_p1_0_S264x2112 c j

/-- A `[264,264]` matrix transposed. -/
theorem tr_W1_apply (x : FVec Ideal S264x264 .f32) (i o : Fin 264) :
    transpose S264x264 [1, 0] x transposes_S264x264_p1_0_S264x264 (ix2 i o) = x (ix2 o i) :=
  transpose_ix2_apply x transposes_S264x264_p1_0_S264x264 i o

/-- An `[88,264]` matrix transposed. -/
theorem tr_W2_apply (x : FVec Ideal S88x264 .f32) (i : Fin 264) (o : Fin 88) :
    transpose S264x88 [1, 0] x transposes_S88x264_p1_0_S264x88 (ix2 i o) = x (ix2 o i) :=
  transpose_ix2_apply x transposes_S88x264_p1_0_S264x88 i o

/-- An `[88,88]` matrix transposed. -/
theorem tr_Wo_apply (x : FVec Ideal S88x88 .f32) (i o : Fin 88) :
    transpose S88x88 [1, 0] x transposes_S88x88_p1_0_S88x88 (ix2 i o) = x (ix2 o i) :=
  transpose_ix2_apply x transposes_S88x88_p1_0_S88x88 i o

/-- A column `[512,1]` broadcast over the 2112 columns reads, at `(p, j)`, the column at `p`. -/
theorem bcol_apply (v : FVec Ideal S512x1 .f32) (p : Fin 512) (j : Fin 2112) :
    broadcastTo S512x2112 v broadcasts_S512x1_S512x2112 (ix2 p j) = v (ix2 p 0) := by
  refine broadcastTo_apply v broadcasts_S512x1_S512x2112 (ix2 p j) (ix2 p 0) fun ax => ?_
  match ax with
  | ⟨0, _⟩ => rfl
  | ⟨1, _⟩ => rfl

/-- A row `[1,264]` broadcast over the 512 rows reads, at `(p, c)`, the row at `c`. -/
theorem brow264_apply (v : FVec Ideal S1x264 .f32) (p : Fin 512) (c : Fin 264) :
    broadcastTo S512x264 v broadcasts_S1x264_S512x264 (ix2 p c) = v (ix2 0 c) :=
  broadcastTo_1b_ab_apply v broadcasts_S1x264_S512x264 p c

/-- A row `[1,88]` broadcast over the 512 rows reads, at `(p, c)`, the row at `c`. -/
theorem brow88_apply (v : FVec Ideal S1x88 .f32) (p : Fin 512) (c : Fin 88) :
    broadcastTo S512x88 v broadcasts_S1x88_S512x88 (ix2 p c) = v (ix2 0 c) :=
  broadcastTo_1b_ab_apply v broadcasts_S1x88_S512x88 p c

/-- The logistic function acts on the elements. -/
theorem logistic_apply {s : Shape} {φ : FTy} (x : FVec Ideal s φ) (i : s.Idx) : logistic x i = Ideal.logistic (x i) := rfl

/-! ## The two accumulators -/

/-- The first grid step fills the cosine accumulator with zeros. -/
theorem zero_fill_cos (p : Fin 512) (j : Fin 2112) : k0_pay1 (F := Ideal) (ix2 p j) = 0 := by
  unfold k0_pay1
  simp only [shapeCast_self, broadcast_apply]
  exact Ideal.ofBits_zero_f32

/-- The first grid step fills the sine accumulator with zeros. -/
theorem zero_fill_sin (p : Fin 512) (j : Fin 2112) : k0_pay2 (F := Ideal) (ix2 p j) = 0 := by
  unfold k0_pay2
  simp only [shapeCast_self, broadcast_apply]
  exact Ideal.ofBits_zero_f32

/-- Each grid step adds to the cosine accumulator the correlation of the row's stretch of 512 samples
with the same stretch of each cosine weight row. -/
theorem accumulate_cos (x0 : Vec Ideal S512x512 .f32) (x1 : Vec Ideal S2112x512 .f32) (acc : Vec Ideal S512x2112 .f32) (p : Fin 512) (j : Fin 2112) :
    k0_pay4 x0 x1 acc (ix2 p j) = acc (ix2 p j) + ∑ kk : Fin 512, x0 (ix2 p kk) * x1 (ix2 j kk) := by
  unfold k0_pay4 k0_pay3
  simp only [shapeCast_self, addf_apply, mm_a_apply, truncf_apply]
  refine congrArg (acc (ix2 p j) + ·) (Finset.sum_congr rfl fun k _ => ?_)
  rw [tr_w_apply]
  rfl

/-- Each grid step adds to the sine accumulator the correlation with each sine weight row. -/
theorem accumulate_sin (x0 : Vec Ideal S512x512 .f32) (x2 : Vec Ideal S2112x512 .f32) (acc : Vec Ideal S512x2112 .f32) (p : Fin 512) (j : Fin 2112) :
    k0_pay5 x0 x2 acc (ix2 p j) = acc (ix2 p j) + ∑ kk : Fin 512, x0 (ix2 p kk) * x2 (ix2 j kk) := by
  unfold k0_pay5 k0_pay3
  simp only [shapeCast_self, addf_apply, mm_a_apply, truncf_apply]
  refine congrArg (acc (ix2 p j) + ·) (Finset.sum_congr rfl fun k _ => ?_)
  rw [tr_w_apply]
  rfl

/-! ## The rows of the head -/

section Rows
variable (s : Vec Ideal S512x1 .f32) (A B : Vec Ideal S512x2112 .f32) (T : Vec Ideal S2112x264 .f32) (p : Fin 512)

/-- The dictionary by coordinates. -/
def dict : Fin 2112 → Fin 264 → EReal := fun j c => T (ix2 j c)
/-- The feature row of tile row `p`: the power of the scaled pair of accumulated correlations. -/
def frow : Fin 2112 → EReal := fun j => Cert.RowSpec.power (A (ix2 p j)) (B (ix2 p j)) (s (ix2 p 0))
/-- The first residual: minus the feature. -/
def xi0 : Fin 2112 → EReal := fun j => -(frow s A B p j)
/-- The first code. -/
def m0 : Fin 264 → EReal := Cert.RowSpec.firstCode (dict T) (xi0 s A B p)
/-- The second residual. -/
def xi1 : Fin 2112 → EReal := Cert.RowSpec.nextResidual (dict T) (frow s A B p) (xi0 s A B p) (m0 s A B T p)
/-- The second code. -/
def m1 : Fin 264 → EReal := Cert.RowSpec.nextCode (dict T) (xi1 s A B T p) (m0 s A B T p)

/-- The feature at an element. -/
theorem pay7_apply (j : Fin 2112) : k0_pay7 s A B (ix2 p j) = frow s A B p j := by
  unfold k0_pay7 frow Cert.RowSpec.power
  simp only [shapeCast_self, addf_apply, mulf_apply, bcol_apply]

/-- The first residual at an element: zero minus the feature. -/
theorem pay8_apply (j : Fin 2112) : k0_pay8 s A B (ix2 p j) = xi0 s A B p j := by
  unfold k0_pay8 xi0
  simp only [subf_apply, broadcast_apply, pay7_apply]
  show Ideal.ofBits .f32 0x00000000#32 - _ = _
  rw [Ideal.ofBits_zero_f32, zero_sub]

/-- The first code at an element. -/
theorem pay9_apply (c : Fin 264) : k0_pay9 s A B T (ix2 p c) = m0 s A B T p c := by
  unfold k0_pay9 m0 Cert.RowSpec.firstCode dict
  simp only [maximumf_apply, mulf_apply, broadcast_apply, mm_b_apply, pay8_apply]
  rfl

/-- The second residual at an element. -/
theorem pay10_apply (j : Fin 2112) : k0_pay10 s A B T (ix2 p j) = xi1 s A B T p j := by
  unfold k0_pay10 xi1 Cert.RowSpec.nextResidual dict
  have hT := tr_T_apply T
  generalize transpose S264x2112 [1, 0] T transposes_S2112x264_p1_0_S264x2112 = Tt at hT ⊢
  simp only [addf_apply, subf_apply, mulf_apply, broadcast_apply, mm_c_apply, hT, pay7_apply, pay8_apply, pay9_apply]
  rfl

/-- The second code at an element. -/
theorem pay11_apply (c : Fin 264) : k0_pay11 s A B T (ix2 p c) = m1 s A B T p c := by
  unfold k0_pay11 m1 Cert.RowSpec.nextCode Cert.RowSpec.nextCodePre dict
  simp only [maximumf_apply, addf_apply, mulf_apply, broadcast_apply, mm_b_apply, pay9_apply, pay10_apply]
  rfl

/-- The second code's image under the transposed dictionary, minus the feature, at an element. -/
theorem pay12_apply (j : Fin 2112) :
    k0_pay12 s A B T (ix2 p j) = (∑ c, m1 s A B T p c * T (ix2 j c)) - frow s A B p j := by
  unfold k0_pay12
  have hT := tr_T_apply T
  generalize transpose S264x2112 [1, 0] T transposes_S2112x264_p1_0_S264x2112 = Tt at hT ⊢
  simp only [subf_apply, mm_c_apply, hT, pay7_apply, pay11_apply]

/-- The splat of `1.6` at an element. -/
theorem pay13_apply (j : Fin 2112) : k0_pay13 (F := Ideal) (ix2 p j) = Cert.RowSpec.k16 := rfl

end Rows

/-! ## Three more rounds, and the layers after them -/

/-- Three more rounds from a residual `xi` and a code `m`, stopped before the last positive part. -/
def tail3 (D : Fin 2112 → Fin 264 → EReal) (f xi : Fin 2112 → EReal) (m : Fin 264 → EReal) : Fin 264 → EReal :=
  let xi2 := Cert.RowSpec.nextResidual D f xi m
  let m2 := Cert.RowSpec.nextCode D xi2 m
  let xi3 := Cert.RowSpec.nextResidual D f xi2 m2
  let m3 := Cert.RowSpec.nextCode D xi3 m2
  let xi4 := Cert.RowSpec.nextResidual D f xi3 m3
  Cert.RowSpec.nextCodePre D xi4 m3

/-- The last three rounds at an element, from what row `p` of the six carried blocks is. -/
theorem pay14_apply (v36 : FVec Ideal S512x2112 .f32) (T : Vec Ideal S2112x264 .f32) (v52 : FVec Ideal S512x2112 .f32)
    (v60 : FVec Ideal S512x264 .f32) (v63 v64 : FVec Ideal S512x2112 .f32) (p : Fin 512)
    (f xi : Fin 2112 → EReal) (m : Fin 264 → EReal)
    (h36 : ∀ j, v36 (ix2 p j) = f j) (h52 : ∀ j, v52 (ix2 p j) = xi j) (h60 : ∀ c, v60 (ix2 p c) = m c)
    (h63 : ∀ j, v63 (ix2 p j) = (∑ c, m c * T (ix2 j c)) - f j) (h64 : ∀ j, v64 (ix2 p j) = Cert.RowSpec.k16)
    (c : Fin 264) :
    k0_pay14 v36 T v52 v60 v63 v64 (ix2 p c) = tail3 (dict T) f xi m c := by
  unfold k0_pay14 tail3 Cert.RowSpec.nextCode Cert.RowSpec.nextCodePre Cert.RowSpec.nextResidual dict
  have hT := tr_T_apply T
  generalize transpose S264x2112 [1, 0] T transposes_S2112x264_p1_0_S264x2112 = Tt at hT ⊢
  simp only [maximumf_apply, addf_apply, subf_apply, mulf_apply, broadcast_apply, mm_b_apply, mm_c_apply, hT,
    h36, h52, h60, h63, h64]
  rfl

/-- The last positive part, the two rectified affine layers, the affine layer and the logistic at an element, from
what row `p` of the carried block is. -/
theorem pay6_apply (v106 : FVec Ideal S512x264 .f32) (W1 : Vec Ideal S264x264 .f32) (b1 : Vec Ideal S1x264 .f32)
    (W2 : Vec Ideal S88x264 .f32) (b2 : Vec Ideal S1x88 .f32) (Wo : Vec Ideal S88x88 .f32) (bo : Vec Ideal S1x88 .f32)
    (p : Fin 512) (pre : Fin 264 → EReal) (h106 : ∀ c, v106 (ix2 p c) = pre c) (o : Fin 88) :
    k0_pay6 v106 W1 b1 W2 b2 Wo bo (ix2 p o)
      = Ideal.logistic (Cert.RowSpec.affine (fun a b => Wo (ix2 a b)) (fun a => bo (ix2 0 a))
          (Cert.RowSpec.affineRelu (fun a b => W2 (ix2 a b)) (fun a => b2 (ix2 0 a))
            (Cert.RowSpec.affineRelu (fun a b => W1 (ix2 a b)) (fun a => b1 (ix2 0 a))
              (fun c => max (pre c) Cert.RowSpec.kZero))) o) := by
  unfold k0_pay6 Cert.RowSpec.affineRelu Cert.RowSpec.affine
  have h1 := tr_W1_apply W1
  generalize transpose S264x264 [1, 0] W1 transposes_S264x264_p1_0_S264x264 = W1t at h1 ⊢
  have h2 := tr_W2_apply W2
  generalize transpose S264x88 [1, 0] W2 transposes_S88x264_p1_0_S264x88 = W2t at h2 ⊢
  have h3 := tr_Wo_apply Wo
  generalize transpose S88x88 [1, 0] Wo transposes_S88x88_p1_0_S88x88 = Wot at h3 ⊢
  simp only [logistic_apply, maximumf_apply, addf_apply, broadcast_apply, shapeCast_self, brow264_apply, brow88_apply,
    mm_d_apply, mm_e_apply, mm_f_apply, h1, h2, h3, h106]
  rfl

/-- The kernel's last grid step at an element: the head of the feature row. -/
theorem head_apply (s : Vec Ideal S512x1 .f32) (A B : Vec Ideal S512x2112 .f32) (T : Vec Ideal S2112x264 .f32) (W1 : Vec Ideal S264x264 .f32) (b1 : Vec Ideal S1x264 .f32) (W2 : Vec Ideal S88x264 .f32) (b2 : Vec Ideal S1x88 .f32) (Wo : Vec Ideal S88x88 .f32) (bo : Vec Ideal S1x88 .f32) (p : Fin 512) (o : Fin 88) :
    k0_pay6 (k0_pay14 (k0_pay7 s A B) T (k0_pay10 s A B T) (k0_pay11 s A B T) (k0_pay12 s A B T) (k0_pay13 (F := Ideal))) W1 b1 W2 b2 Wo bo (ix2 p o)
      = Cert.RowSpec.head (fun j c => T (ix2 j c)) (fun a b => W1 (ix2 a b)) (fun a => b1 (ix2 0 a)) (fun a b => W2 (ix2 a b)) (fun a => b2 (ix2 0 a))
          (fun a b => Wo (ix2 a b)) (fun a => bo (ix2 0 a)) (fun j => Cert.RowSpec.power (A (ix2 p j)) (B (ix2 p j)) (s (ix2 p 0))) o := by
  refine (pay6_apply _ W1 b1 W2 b2 Wo bo p _
    (fun c => pay14_apply _ T _ _ _ _ p _ _ _ (pay7_apply s A B p) (pay10_apply s A B T p) (pay11_apply s A B T p)
      (pay12_apply s A B T p) (pay13_apply p) c) o).trans ?_
  rfl

end Cert.KernelSide

end
-- ==== Proof.KernelTables.lean ====
/-
  The two running tables, step by step.

  Within one tile of 512 batch rows the 16 grid steps walk over the 16 stretches of 512 samples.
  The first step clears a table and adds its stretch's products; every later step adds its own.
  So after step k the table holds the sum over the stretches 0 … k of the stretch products, and
  after the last step the sum over all 16 stretches, which is the correlation over all 8192
  samples: addition of extended reals is commutative and associative, so the sum may be split into
  stretches whatever the values are.
-/
import proofs.«133979_j38689065402872_1_alg».proof.Proof.Gen.KernelIdeal.Value
import proofs.«133979_j38689065402872_1_alg».proof.Proof.KernelSteps
import proofs.«133979_j38689065402872_1_alg».proof.Proof.KernelInputs
import proofs.«133979_j38689065402872_1_alg».proof.Proof.KernelHead
import proofs.«133979_j38689065402872_1_alg».proof.Proof.RowSpec
import Idealize.ShloMosaic.Lib.Pipeline.Value
import Idealize.ShloMosaic.Lib.ValueIdx

noncomputable section

namespace Cert.KernelTables

open Cert.KernelIdeal Cert.KernelIdeal.Gen Cert.KernelIdeal.Value Idealize.ShloMosaic Idealize.ShloMosaic.TcCoe Idealize.SL.Sem
open Idealize.ShloMosaic.ValueIdx Cert.KernelInputs Cert.KernelSteps Cert.KernelSide

variable (m : (ℓ : Loc nD τ sig) → Buf (Elt Ideal) ℓ)

/-- The entries of the signal and of the two banks of weights as the kernel finds them, as extended reals. -/
abbrev signalAt (c : Dev nD) (r : Fin 4096) (k : Fin 8192) : EReal := V m c main_arg0 (ix2 r k)
abbrev cosAt (c : Dev nD) (j : Fin 2112) (k : Fin 8192) : EReal := V m c main_arg2 (ix2 j k)
abbrev sinAt (c : Dev nD) (j : Fin 2112) (k : Fin 8192) : EReal := V m c main_arg3 (ix2 j k)

/-- The sum of products grid step n adds to the cos table: over the step's stretch of 512 samples, the tile's
    samples times the cos weights' samples (nothing past the grid, where no step runs). -/
def cosProducts (c : Dev nD) (n : ℕ) (i : S512x2112.Idx) : EReal :=
  if h : n < cfg0.N then ∑ kk : Fin 512, signalBlock m c ⟨n, h⟩ (ix2 (i 0) kk) * cosBlock m c ⟨n, h⟩ (ix2 (i 1) kk) else 0

/-- The first step of a tile leaves the cleared table plus its products. -/
theorem cos_first (c : Dev nD) (n : ℕ) (hb : n < cfg0.N) (h0 : n % 16 = 0) (i : S512x2112.Idx) :
    scAt0_0 m c n hb (VS0_0.read (Elt Ideal) VS0_0.junk) i = 0 + cosProducts m c n i := by
  have h1 : ¬n % 16 = 15 := by omega
  unfold scAt0_0
  rw [dif_pos h0, dif_neg h1, cos_table_first]
  obtain ⟨p, j, rfl⟩ : ∃ (p : Fin 512) (j : Fin 2112), i = ix2 p j := ⟨i 0, i 1, eq_ix2 i⟩
  rw [accumulate_cos, zero_fill_cos]
  unfold cosProducts
  rw [dif_pos hb]

/-- Every later step of a tile leaves what the table held plus its products. -/
theorem cos_next (c : Dev nD) (n : ℕ) (hb : n < cfg0.N) (h0 : ¬n % 16 = 0) (acc : Vec Ideal S512x2112 .f32)
    (i : S512x2112.Idx) : scAt0_0 m c n hb acc i = acc i + cosProducts m c n i := by
  obtain ⟨p, j, rfl⟩ : ∃ (p : Fin 512) (j : Fin 2112), i = ix2 p j := ⟨i 0, i 1, eq_ix2 i⟩
  unfold scAt0_0
  rw [dif_neg h0]
  by_cases h1 : n % 16 = 15
  · rw [dif_pos h1, cos_table_last, accumulate_cos]
    unfold cosProducts
    rw [dif_pos hb]
  · rw [dif_neg h1, cos_table_mid, accumulate_cos]
    unfold cosProducts
    rw [dif_pos hb]

/-- After grid step t the cos table holds the products of the tile's steps so far, summed. -/
theorem cos_table_at (c : Dev nD) (t : Fin cfg0.N) (i : S512x2112.Idx) :
    (outsAt0 m c t.val t.isLt).2.1 i
      = 0 + ∑ s ∈ Finset.range (t.val % 16 + 1), cosProducts m c (16 * (t.val / 16) + s) i := by
  rw [soutsAt0_0_eq m c t]
  exact Pipeline.accAt_add_apply (fun n h => scAt0_0 m c n h (VS0_0.read (Elt Ideal) VS0_0.junk)) (scAt0_0 m c)
    (fun _ => (0 : EReal)) (cosProducts m c) (16 * (t.val / 16)) 15
    (fun h i => cos_first m c _ h (by omega) i)
    (fun n h acc i hlt hle => cos_next m c n h (by omega) acc i)
    (t.val % 16) (by omega) _ i

/-- The products of one step of a tile, in terms of the arrays: over the step's stretch, the batch row's samples
    times the weight row's samples. -/
theorem cosProducts_apply (c : Dev nD) (t : Fin cfg0.N) (s : ℕ) (hs : s < 16) (p : Fin 512) (j : Fin 2112) :
    cosProducts m c (16 * (t.val / 16) + s) (ix2 p j)
      = ∑ kk : Fin 512, signalAt m c (tileRow t p) ⟨512 * s + kk.val, by have := kk.isLt; omega⟩
          * cosAt m c j ⟨512 * s + kk.val, by have := kk.isLt; omega⟩ := by
  have hN : cfg0.N = 128 := N_0
  have ht := t.isLt
  have hn : 16 * (t.val / 16) + s < cfg0.N := by omega
  unfold cosProducts
  rw [dif_pos hn]
  refine Finset.sum_congr rfl fun kk _ => ?_
  have e1 : tileRow ⟨16 * (t.val / 16) + s, hn⟩ p = tileRow t p :=
    Fin.ext (by show 512 * ((16 * (t.val / 16) + s) / 16) + p.val = 512 * (t.val / 16) + p.val; omega)
  have e2 : stretchSample ⟨16 * (t.val / 16) + s, hn⟩ kk = ⟨512 * s + kk.val, by have := kk.isLt; omega⟩ :=
    Fin.ext (by show 512 * ((16 * (t.val / 16) + s) % 16) + kk.val = 512 * s + kk.val; omega)
  show signalBlock m c ⟨16 * (t.val / 16) + s, hn⟩ (ix2 p kk) * cosBlock m c ⟨16 * (t.val / 16) + s, hn⟩ (ix2 j kk) = _
  rw [signalBlock_apply, cosBlock_apply, e1, e2]

/-- After the last step of a tile the cos table holds, for row p of the tile and weight row j, the correlation
    of the tile's batch row with that weight row over all 8192 samples. -/
theorem cos_finished (c : Dev nD) (t : Fin cfg0.N) (h15 : t.val % 16 = 15) (p : Fin 512) (j : Fin 2112) :
    (outsAt0 m c t.val t.isLt).2.1 (ix2 p j) = Cert.RowSpec.corr (signalAt m c) (cosAt m c) (tileRow t p) j := by
  rw [cos_table_at, h15, zero_add]
  unfold Cert.RowSpec.corr
  refine Eq.trans ?_ (Cert.RowSpec.sum_stretches
    (fun k : Fin 8192 => signalAt m c (tileRow t p) k * cosAt m c j k)
    (fun s kk => if hs : s < 16 then signalAt m c (tileRow t p) ⟨512 * s + kk.val, by have := kk.isLt; omega⟩
      * cosAt m c j ⟨512 * s + kk.val, by have := kk.isLt; omega⟩ else 0)
    (fun s hs kk => dif_pos hs))
  refine Finset.sum_congr rfl fun s hs => ?_
  have hs' : s < 16 := Finset.mem_range.mp hs
  rw [cosProducts_apply m c t s hs' p j]
  exact Finset.sum_congr rfl fun kk _ => by rw [dif_pos hs']

/-- The sum of products grid step n adds to the sin table: over the step's stretch of 512 samples, the tile's
    samples times the sin weights' samples (nothing past the grid, where no step runs). -/
def sinProducts (c : Dev nD) (n : ℕ) (i : S512x2112.Idx) : EReal :=
  if h : n < cfg0.N then ∑ kk : Fin 512, signalBlock m c ⟨n, h⟩ (ix2 (i 0) kk) * sinBlock m c ⟨n, h⟩ (ix2 (i 1) kk) else 0

/-- The first step of a tile leaves the cleared table plus its products. -/
theorem sin_first (c : Dev nD) (n : ℕ) (hb : n < cfg0.N) (h0 : n % 16 = 0) (i : S512x2112.Idx) :
    scAt0_1 m c n hb (VS0_1.read (Elt Ideal) VS0_1.junk) i = 0 + sinProducts m c n i := by
  have h1 : ¬n % 16 = 15 := by omega
  unfold scAt0_1
  rw [dif_pos h0, dif_neg h1, sin_table_first]
  obtain ⟨p, j, rfl⟩ : ∃ (p : Fin 512) (j : Fin 2112), i = ix2 p j := ⟨i 0, i 1, eq_ix2 i⟩
  rw [accumulate_sin, zero_fill_sin]
  unfold sinProducts
  rw [dif_pos hb]

/-- Every later step of a tile leaves what the table held plus its products. -/
theorem sin_next (c : Dev nD) (n : ℕ) (hb : n < cfg0.N) (h0 : ¬n % 16 = 0) (acc : Vec Ideal S512x2112 .f32)
    (i : S512x2112.Idx) : scAt0_1 m c n hb acc i = acc i + sinProducts m c n i := by
  obtain ⟨p, j, rfl⟩ : ∃ (p : Fin 512) (j : Fin 2112), i = ix2 p j := ⟨i 0, i 1, eq_ix2 i⟩
  unfold scAt0_1
  rw [dif_neg h0]
  by_cases h1 : n % 16 = 15
  · rw [dif_pos h1, sin_table_last, accumulate_sin]
    unfold sinProducts
    rw [dif_pos hb]
  · rw [dif_neg h1, sin_table_mid, accumulate_sin]
    unfold sinProducts
    rw [dif_pos hb]

/-- After grid step t the sin table holds the products of the tile's steps so far, summed. -/
theorem sin_table_at (c : Dev nD) (t : Fin cfg0.N) (i : S512x2112.Idx) :
    (outsAt0 m c t.val t.isLt).2.2 i
      = 0 + ∑ s ∈ Finset.range (t.val % 16 + 1), sinProducts m c (16 * (t.val / 16) + s) i := by
  rw [soutsAt0_1_eq m c t]
  exact Pipeline.accAt_add_apply (fun n h => scAt0_1 m c n h (VS0_1.read (Elt Ideal) VS0_1.junk)) (scAt0_1 m c)
    (fun _ => (0 : EReal)) (sinProducts m c) (16 * (t.val / 16)) 15
    (fun h i => sin_first m c _ h (by omega) i)
    (fun n h acc i hlt hle => sin_next m c n h (by omega) acc i)
    (t.val % 16) (by omega) _ i

/-- The products of one step of a tile, in terms of the arrays: over the step's stretch, the batch row's samples
    times the weight row's samples. -/
theorem sinProducts_apply (c : Dev nD) (t : Fin cfg0.N) (s : ℕ) (hs : s < 16) (p : Fin 512) (j : Fin 2112) :
    sinProducts m c (16 * (t.val / 16) + s) (ix2 p j)
      = ∑ kk : Fin 512, signalAt m c (tileRow t p) ⟨512 * s + kk.val, by have := kk.isLt; omega⟩
          * sinAt m c j ⟨512 * s + kk.val, by have := kk.isLt; omega⟩ := by
  have hN : cfg0.N = 128 := N_0
  have ht := t.isLt
  have hn : 16 * (t.val / 16) + s < cfg0.N := by omega
  unfold sinProducts
  rw [dif_pos hn]
  refine Finset.sum_congr rfl fun kk _ => ?_
  have e1 : tileRow ⟨16 * (t.val / 16) + s, hn⟩ p = tileRow t p :=
    Fin.ext (by show 512 * ((16 * (t.val / 16) + s) / 16) + p.val = 512 * (t.val / 16) + p.val; omega)
  have e2 : stretchSample ⟨16 * (t.val / 16) + s, hn⟩ kk = ⟨512 * s + kk.val, by have := kk.isLt; omega⟩ :=
    Fin.ext (by show 512 * ((16 * (t.val / 16) + s) % 16) + kk.val = 512 * s + kk.val; omega)
  show signalBlock m c ⟨16 * (t.val / 16) + s, hn⟩ (ix2 p kk) * sinBlock m c ⟨16 * (t.val / 16) + s, hn⟩ (ix2 j kk) = _
  rw [signalBlock_apply, sinBlock_apply, e1, e2]

/-- After the last step of a tile the sin table holds, for row p of the tile and weight row j, the correlation
    of the tile's batch row with that weight row over all 8192 samples. -/
theorem sin_finished (c : Dev nD) (t : Fin cfg0.N) (h15 : t.val % 16 = 15) (p : Fin 512) (j : Fin 2112) :
    (outsAt0 m c t.val t.isLt).2.2 (ix2 p j) = Cert.RowSpec.corr (signalAt m c) (sinAt m c) (tileRow t p) j := by
  rw [sin_table_at, h15, zero_add]
  unfold Cert.RowSpec.corr
  refine Eq.trans ?_ (Cert.RowSpec.sum_stretches
    (fun k : Fin 8192 => signalAt m c (tileRow t p) k * sinAt m c j k)
    (fun s kk => if hs : s < 16 then signalAt m c (tileRow t p) ⟨512 * s + kk.val, by have := kk.isLt; omega⟩
      * sinAt m c j ⟨512 * s + kk.val, by have := kk.isLt; omega⟩ else 0)
    (fun s hs kk => dif_pos hs))
  refine Finset.sum_congr rfl fun s hs => ?_
  have hs' : s < 16 := Finset.mem_range.mp hs
  rw [sinProducts_apply m c t s hs' p j]
  exact Finset.sum_congr rfl fun kk _ => by rw [dif_pos hs']

end Cert.KernelTables

end
-- ==== Proof.KernelResult.lean ====
/-
  The kernel's result array.

  The result array is written back one tile at a time, by the last of the tile's 16 grid steps.
  What that step writes for row p of tile i is the row function of the specification applied to
  the feature row of batch row 512·i + p: its two finished tables are that row's correlations,
  its scale block holds that row's scale, and everything after the feature works row by row.
  The 8 tiles cover the 4096 rows, so the array ends holding the specification everywhere.
-/
import proofs.«133979_j38689065402872_1_alg».proof.Proof.Gen.KernelIdeal.Value
import proofs.«133979_j38689065402872_1_alg».proof.Proof.KernelSteps
import proofs.«133979_j38689065402872_1_alg».proof.Proof.KernelInputs
import proofs.«133979_j38689065402872_1_alg».proof.Proof.KernelHead
import proofs.«133979_j38689065402872_1_alg».proof.Proof.KernelTables
import proofs.«133979_j38689065402872_1_alg».proof.Proof.RowSpec
import Idealize.ShloMosaic.Lib.Pipeline.Value
import Idealize.ShloMosaic.Lib.ValueIdx

noncomputable section

namespace Cert.KernelResult

open Cert.KernelIdeal Cert.KernelIdeal.Gen Cert.KernelIdeal.Value Idealize.ShloMosaic Idealize.ShloMosaic.TcCoe Idealize.SL.Sem
open Idealize.ShloMosaic.ValueIdx Cert.KernelInputs Cert.KernelSteps Cert.KernelSide Cert.KernelTables
open Idealize.ShloMosaic.Pipeline (Dat)

variable (m : (ℓ : Loc nD τ sig) → Buf (Elt Ideal) ℓ) (ρ : Dev nD → PrngReg)

/-- The specification, of the arrays as the kernel finds them (the biases as the 1 × n arrays, the scales as the
    4096 × 1 array the host prepared). -/
def specAt (c : Dev nD) : S4096x88.Idx → EReal := fun y =>
  Cert.RowSpec.result (fun r k => V m c main_arg0 (ix2 r k)) (fun j k => V m c main_arg2 (ix2 j k)) (fun j k => V m c main_arg3 (ix2 j k))
    (fun r => V m c main_v6 (ix2 r (0 : Fin 1))) (fun j c' => V m c main_arg4 (ix2 j c')) (fun a b => V m c main_arg5 (ix2 a b))
    (fun a => V m c main_v7 (ix2 (0 : Fin 1) a)) (fun a b => V m c main_arg7 (ix2 a b)) (fun a => V m c main_v8 (ix2 (0 : Fin 1) a))
    (fun a b => V m c main_arg9 (ix2 a b)) (fun a => V m c main_v9 (ix2 (0 : Fin 1) a)) (y 0) (y 1)

/-- What the last step of a tile computes from the finished tables, the tile's scales and the whole weight arrays. -/
def lastBlock (c : Dev nD) (t : Fin cfg0.N) : Vec Ideal S512x88 .f32 :=
  k0_pay6 (k0_pay14
      (k0_pay7 (scaleBlock m c t) (outsAt0 m c t.val t.isLt).2.1 (outsAt0 m c t.val t.isLt).2.2) (V m c main_arg4)
      (k0_pay10 (scaleBlock m c t) (outsAt0 m c t.val t.isLt).2.1 (outsAt0 m c t.val t.isLt).2.2 (V m c main_arg4))
      (k0_pay11 (scaleBlock m c t) (outsAt0 m c t.val t.isLt).2.1 (outsAt0 m c t.val t.isLt).2.2 (V m c main_arg4))
      (k0_pay12 (scaleBlock m c t) (outsAt0 m c t.val t.isLt).2.1 (outsAt0 m c t.val t.isLt).2.2 (V m c main_arg4))
      (k0_pay13 (F := Ideal)))
    (V m c main_arg5) (V m c main_v7) (V m c main_arg7) (V m c main_v8) (V m c main_arg9) (V m c main_v9)

/-- Row p of the last step's block is the specification's row 512·i + p. -/
theorem lastBlock_apply (c : Dev nD) (t : Fin cfg0.N) (h15 : t.val % 16 = 15) (p : Fin 512) (o : Fin 88) :
    lastBlock m c t (ix2 p o) = specAt m c (ix2 (tileRow t p) o) := by
  unfold lastBlock
  rw [head_apply]
  unfold specAt Cert.RowSpec.result Cert.RowSpec.feat
  simp only [cos_finished m c t h15, sin_finished m c t h15, scaleBlock_apply]

/-- The last step's two tables are the tables after it. -/
theorem cos_table_of_last (c : Dev nD) (t : Fin cfg0.N) (h0 : ¬t.val % 16 = 0) (h15 : t.val % 16 = 15)
    (hlt : t.val - 1 < cfg0.N) :
    k0_pay4 (iblk m c 0 t) (iblk m c 1 t) (outsAt0 m c (t.val - 1) hlt).2.1 = (outsAt0 m c t.val t.isLt).2.1 := by
  rw [outsAt0_C m c t h0 h15]
  dsimp only
  rw [cos_table_last]

theorem sin_table_of_last (c : Dev nD) (t : Fin cfg0.N) (h0 : ¬t.val % 16 = 0) (h15 : t.val % 16 = 15)
    (hlt : t.val - 1 < cfg0.N) :
    k0_pay5 (iblk m c 0 t) (iblk m c 2 t) (outsAt0 m c (t.val - 1) hlt).2.2 = (outsAt0 m c t.val t.isLt).2.2 := by
  rw [outsAt0_C m c t h0 h15]
  dsimp only
  rw [sin_table_last]

/-- What the last step of a tile writes back is the specification's block at the tile. -/
theorem flushed_eq (c : Dev nD) (t : Fin cfg0.N) (hf : (cfg0.win 11).flush t = true) :
    (dats m 0 c).flushed 11 t = ((cfg0.win 11).blk t).view.read (Elt Ideal) (specAt m c) := by
  have h15 : t.val % 16 = 15 := (flush0_11 t).mp hf
  have h0 : ¬t.val % 16 = 0 := by omega
  rw [flushed11_C m c t h0 h15, result_block_last, cos_table_of_last m c t h0 h15, sin_table_of_last m c t h0 h15,
    dictionaryBlock_eq m c t, w1Block_eq m c t, b1Block_eq m c t, w2Block_eq m c t, b2Block_eq m c t, woBlock_eq m c t,
    boBlock_eq m c t]
  funext y
  have hy : ((cfg0.win 11).blk t).view.emb y = ix2 (tileRow t (y 0)) (y 1) := by
    have hi := (block_index t).2.2.2.2.2.2.2.2.2.2.2
    funext a
    apply Fin.ext
    match a with
    | ⟨0, _⟩ => show win0_11.index t 0 * 512 + 1 * (y 0).val = 512 * (t.val / 16) + (y 0).val; rw [hi.1]; omega
    | ⟨1, _⟩ => show win0_11.index t 1 * 88 + 1 * (y 1).val = (y 1).val; rw [hi.2]; omega
  show lastBlock m c t y = specAt m c (((cfg0.win 11).blk t).view.emb y)
  rw [hy]
  exact (congrArg (lastBlock m c t) (eq_ix2 y)).trans (lastBlock_apply m c t h15 (y 0) (y 1))

/-- An index of the result array is in the block the grid step t writes back iff its coordinates are in the block's ranges. -/
theorem mem_block (t : Fin cfg0.N) (i : S4096x88.Idx) :
    i ∈ ((cfg0.win 11).blk t).view.set ↔ ∀ a : Fin 2, win0_11.index t a * S512x88.size a ≤ (i a).val ∧ (i a).val < win0_11.index t a * S512x88.size a + S512x88.size a := by
  show i ∈ ((View.whole main_v10).slice (win0_11.rect t)).set ↔ _
  rw [View.set_slice_whole, Rect.mem_set_unit]
  exact Iff.rfl

/-- Every row of the result array lies in the block of the last step of its tile. -/
theorem covered (i : S4096x88.Idx) :
    ∃ t : Fin cfg0.N, (cfg0.win 11).flush t = true ∧ i ∈ ((cfg0.win 11).blk t).view.set := by
  have hN : cfg0.N = 128 := N_0
  have hi0 : (i 0).val < 4096 := (i 0).isLt
  have hi1 : (i 1).val < 88 := (i 1).isLt
  let t : Fin cfg0.N := ⟨16 * ((i 0).val / 512) + 15, by omega⟩
  have hi := (block_index t).2.2.2.2.2.2.2.2.2.2.2
  refine ⟨t, (flush0_11 t).mpr (by show (16 * ((i 0).val / 512) + 15) % 16 = 15; omega), ?_⟩
  rw [mem_block]
  intro a
  match a with
  | ⟨0, _⟩ =>
    show win0_11.index t 0 * 512 ≤ (i 0).val ∧ (i 0).val < win0_11.index t 0 * 512 + 512
    rw [hi.1]
    show (16 * ((i 0).val / 512) + 15) / 16 * 512 ≤ (i 0).val ∧ (i 0).val < (16 * ((i 0).val / 512) + 15) / 16 * 512 + 512
    omega
  | ⟨1, _⟩ =>
    show win0_11.index t 1 * 88 ≤ (i 1).val ∧ (i 1).val < win0_11.index t 1 * 88 + 88
    rw [hi.2]
    omega

/-- So the result array ends holding the specification. -/
theorem final (c : Dev nD) : (dats m 0 c).arrAt 11 cfg0.N = specAt m c :=
  (dats m 0 c).arrAt_eq_of_cover 11 (specAt m c) (flushed_eq m c) covered

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v10) = specAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelResult

end
-- ==== Proof.RefValue.lean ====
/-
  The reference program computes the row specification.

  The reference is a straight line of array operations.  Read at one row `r` of the batch,
  every matrix product is a finite sum over the contracted axis, every transpose swaps the two
  coordinates of the operand it reads, every broadcast of a scalar is that scalar and every
  broadcast of a bias row is the bias at the column.  Stage by stage this identifies the
  program's values with the functions of `RowSpec`: the two correlations and the feature, the
  first code, four rounds of residual and code, two rectified affine layers, an affine layer
  and the logistic function, which is `1 / (1 + exp (-x))` by definition.
-/
import proofs.«133979_j38689065402872_1_alg».proof.Proof.RefRead
import proofs.«133979_j38689065402872_1_alg».proof.Proof.RowSpec
import Idealize.ShloMosaic.Lib.ValueIdx
import Idealize.ShloMosaic.Lib.ValueLayout
import Idealize.ShloMosaic.PureOps.Ideal.Laws

noncomputable section

namespace Cert.RefSide

open Cert.ReferenceIdeal Cert.ReferenceIdeal.ReadP Idealize.ShloMosaic Idealize.ShloMosaic.ValueIdx

/-- Two rank-2 indices with the same coordinates are equal. -/
theorem ix2_ext {n0 n1 : Nat} {f g : (⟨2, ![n0, n1]⟩ : Shape).Idx} (h0 : f 0 = g 0) (h1 : f 1 = g 1) : f = g :=
  funext fun a => match a with | ⟨0, _⟩ => h0 | ⟨1, _⟩ => h1

/-- Two rank-1 indices with the same coordinate are equal. -/
theorem ix1_ext {n : Nat} {f g : (⟨1, ![n]⟩ : Shape).Idx} (h0 : f 0 = g 0) : f = g :=
  funext fun a => match a with | ⟨0, _⟩ => h0

/-- The pattern `0x3F800000` is the number one. -/
theorem one_eq : Ideal.ofBits .f32 0x3F800000#32 = (1 : EReal) := by
  simp [Ideal.ofBits, Ideal.ieee, -EReal.coe_mul]
  norm_num

variable (x0 : (⟨S4096x8192, .f32⟩ : BufTy).Contents (Elt Ideal))
  (x2 x3 : (⟨S2112x8192, .f32⟩ : BufTy).Contents (Elt Ideal))
  (x4 : (⟨S2112x264, .f32⟩ : BufTy).Contents (Elt Ideal))
  (x5 : (⟨S264x264, .f32⟩ : BufTy).Contents (Elt Ideal))
  (x6 : (⟨S264, .f32⟩ : BufTy).Contents (Elt Ideal))
  (x7 : (⟨S88x264, .f32⟩ : BufTy).Contents (Elt Ideal))
  (x8 : (⟨S88, .f32⟩ : BufTy).Contents (Elt Ideal))
  (x9 : (⟨S88x88, .f32⟩ : BufTy).Contents (Elt Ideal))
  (x10 : (⟨S88, .f32⟩ : BufTy).Contents (Elt Ideal))

/-! ## The correlations, the scale and the feature -/

/-- The first correlation: the transpose of the cosine bank is read with its coordinates swapped. -/
theorem v8_eq (r : Fin 4096) (j : Fin 2112) :
    val_main_v8 (F := Ideal) x0 x2 (ix2 r j)
      = RowSpec.corr (fun r k => x0 (ix2 r k)) (fun j k => x2 (ix2 j k)) r j := by
  rw [val_main_v8_apply]
  unfold RowSpec.corr
  refine Finset.sum_congr rfl fun k _ => ?_
  rw [val_main_v7_apply,
    show lidx_main_v8 (ix2 r j) k = ix2 r k from ix2_ext rfl rfl,
    show idx_main_v7 (ridx_main_v8 (ix2 r j) k) = ix2 j k from ix2_ext rfl rfl]

/-- The second correlation, against the sine bank. -/
theorem v12_eq (r : Fin 4096) (j : Fin 2112) :
    val_main_v12 (F := Ideal) x0 x3 (ix2 r j)
      = RowSpec.corr (fun r k => x0 (ix2 r k)) (fun j k => x3 (ix2 j k)) r j := by
  rw [val_main_v12_apply]
  unfold RowSpec.corr
  refine Finset.sum_congr rfl fun k _ => ?_
  rw [val_main_v11_apply,
    show lidx_main_v12 (ix2 r j) k = ix2 r k from ix2_ext rfl rfl,
    show idx_main_v11 (ridx_main_v12 (ix2 r j) k) = ix2 j k from ix2_ext rfl rfl]

/-- The scale of row `r`, broadcast along the feature axis: `8192` divided by the row's count. -/
theorem v9_eq (r : Fin 4096) (j : Fin 2112) :
    val_main_v9 (F := Ideal) x0 (ix2 r j)
      = Ideal.div (Ideal.ofBits .f32 0x46000000#32) (val_main_v3 (F := Ideal) x0 (ix1 r)) := by
  rw [val_main_v9_apply, val_main_v6_apply, val_main_v5_apply, val_main_cst_apply, val_main_v4_apply,
    show idx_main_v4 (idx_main_v9 (ix2 r j)) = ix1 r from ix1_ext rfl]
  rfl

/-- The same scale, in its second broadcast. -/
theorem v13_eq (r : Fin 4096) (j : Fin 2112) :
    val_main_v13 (F := Ideal) x0 (ix2 r j)
      = Ideal.div (Ideal.ofBits .f32 0x46000000#32) (val_main_v3 (F := Ideal) x0 (ix1 r)) := by
  rw [val_main_v13_apply, val_main_v6_apply, val_main_v5_apply, val_main_cst_apply, val_main_v4_apply,
    show idx_main_v4 (idx_main_v13 (ix2 r j)) = ix1 r from ix1_ext rfl]
  rfl

/-- The feature: the power of the scaled pair of correlations. -/
theorem v17_eq (r : Fin 4096) (j : Fin 2112) :
    val_main_v17 (F := Ideal) x0 x2 x3 (ix2 r j)
      = RowSpec.feat (fun r k => x0 (ix2 r k)) (fun j k => x2 (ix2 j k)) (fun j k => x3 (ix2 j k))
          (fun r => Ideal.div (Ideal.ofBits .f32 0x46000000#32) (val_main_v3 (F := Ideal) x0 (ix1 r))) r j := by
  rw [val_main_v17_apply, val_main_v15_apply, val_main_v16_apply, val_main_v10_apply, val_main_v14_apply,
    v8_eq, v12_eq, v9_eq, v13_eq]
  rfl

/-- The feature row of row `r`. -/
theorem row17 (r : Fin 4096) :
    (fun j => val_main_v17 (F := Ideal) x0 x2 x3 (ix2 r j))
      = RowSpec.feat (fun r k => x0 (ix2 r k)) (fun j k => x2 (ix2 j k)) (fun j k => x3 (ix2 j k))
          (fun r => Ideal.div (Ideal.ofBits .f32 0x46000000#32) (val_main_v3 (F := Ideal) x0 (ix1 r))) r :=
  funext fun j => v17_eq x0 x2 x3 r j

/-- The first residual is the negated feature. -/
theorem row18 (r : Fin 4096) :
    (fun j => val_main_v18 (F := Ideal) x0 x2 x3 (ix2 r j))
      = fun j => -(val_main_v17 (F := Ideal) x0 x2 x3 (ix2 r j)) := rfl

/-! ## The products with the dictionary -/

/-- The first residual against the dictionary. -/
theorem v19_eq (r : Fin 4096) (c : Fin 264) :
    val_main_v19 (F := Ideal) x0 x2 x3 x4 (ix2 r c)
      = ∑ j : Fin 2112, val_main_v18 (F := Ideal) x0 x2 x3 (ix2 r j) * x4 (ix2 j c) := by
  rw [val_main_v19_apply]
  refine Finset.sum_congr rfl fun k _ => ?_
  rw [show lidx_main_v19 (ix2 r c) k = ix2 r k from ix2_ext rfl rfl,
    show ridx_main_v19 (ix2 r c) k = ix2 k c from ix2_ext rfl rfl]

/-- The second residual against the dictionary. -/
theorem v31_eq (r : Fin 4096) (c : Fin 264) :
    val_main_v31 (F := Ideal) x0 x2 x3 x4 (ix2 r c)
      = ∑ j : Fin 2112, val_main_v30 (F := Ideal) x0 x2 x3 x4 (ix2 r j) * x4 (ix2 j c) := by
  rw [val_main_v31_apply]
  refine Finset.sum_congr rfl fun k _ => ?_
  rw [show lidx_main_v31 (ix2 r c) k = ix2 r k from ix2_ext rfl rfl,
    show ridx_main_v31 (ix2 r c) k = ix2 k c from ix2_ext rfl rfl]

/-- The third residual against the dictionary. -/
theorem v46_eq (r : Fin 4096) (c : Fin 264) :
    val_main_v46 (F := Ideal) x0 x2 x3 x4 (ix2 r c)
      = ∑ j : Fin 2112, val_main_v45 (F := Ideal) x0 x2 x3 x4 (ix2 r j) * x4 (ix2 j c) := by
  rw [val_main_v46_apply]
  refine Finset.sum_congr rfl fun k _ => ?_
  rw [show lidx_main_v46 (ix2 r c) k = ix2 r k from ix2_ext rfl rfl,
    show ridx_main_v46 (ix2 r c) k = ix2 k c from ix2_ext rfl rfl]

/-- The fourth residual against the dictionary. -/
theorem v61_eq (r : Fin 4096) (c : Fin 264) :
    val_main_v61 (F := Ideal) x0 x2 x3 x4 (ix2 r c)
      = ∑ j : Fin 2112, val_main_v60 (F := Ideal) x0 x2 x3 x4 (ix2 r j) * x4 (ix2 j c) := by
  rw [val_main_v61_apply]
  refine Finset.sum_congr rfl fun k _ => ?_
  rw [show lidx_main_v61 (ix2 r c) k = ix2 r k from ix2_ext rfl rfl,
    show ridx_main_v61 (ix2 r c) k = ix2 k c from ix2_ext rfl rfl]

/-- The fifth residual against the dictionary. -/
theorem v76_eq (r : Fin 4096) (c : Fin 264) :
    val_main_v76 (F := Ideal) x0 x2 x3 x4 (ix2 r c)
      = ∑ j : Fin 2112, val_main_v75 (F := Ideal) x0 x2 x3 x4 (ix2 r j) * x4 (ix2 j c) := by
  rw [val_main_v76_apply]
  refine Finset.sum_congr rfl fun k _ => ?_
  rw [show lidx_main_v76 (ix2 r c) k = ix2 r k from ix2_ext rfl rfl,
    show ridx_main_v76 (ix2 r c) k = ix2 k c from ix2_ext rfl rfl]

/-- The first code against the transposed dictionary. -/
theorem v24_eq (r : Fin 4096) (j : Fin 2112) :
    val_main_v24 (F := Ideal) x0 x2 x3 x4 (ix2 r j)
      = ∑ c : Fin 264, val_main_v22 (F := Ideal) x0 x2 x3 x4 (ix2 r c) * x4 (ix2 j c) := by
  rw [val_main_v24_apply]
  refine Finset.sum_congr rfl fun k _ => ?_
  rw [val_main_v23_apply,
    show lidx_main_v24 (ix2 r j) k = ix2 r k from ix2_ext rfl rfl,
    show idx_main_v23 (ridx_main_v24 (ix2 r j) k) = ix2 j k from ix2_ext rfl rfl]

/-- The second code against the transposed dictionary. -/
theorem v39_eq (r : Fin 4096) (j : Fin 2112) :
    val_main_v39 (F := Ideal) x0 x2 x3 x4 (ix2 r j)
      = ∑ c : Fin 264, val_main_v37 (F := Ideal) x0 x2 x3 x4 (ix2 r c) * x4 (ix2 j c) := by
  rw [val_main_v39_apply]
  refine Finset.sum_congr rfl fun k _ => ?_
  rw [val_main_v38_apply,
    show lidx_main_v39 (ix2 r j) k = ix2 r k from ix2_ext rfl rfl,
    show idx_main_v38 (ridx_main_v39 (ix2 r j) k) = ix2 j k from ix2_ext rfl rfl]

/-- The third code against the transposed dictionary. -/
theorem v54_eq (r : Fin 4096) (j : Fin 2112) :
    val_main_v54 (F := Ideal) x0 x2 x3 x4 (ix2 r j)
      = ∑ c : Fin 264, val_main_v52 (F := Ideal) x0 x2 x3 x4 (ix2 r c) * x4 (ix2 j c) := by
  rw [val_main_v54_apply]
  refine Finset.sum_congr rfl fun k _ => ?_
  rw [val_main_v53_apply,
    show lidx_main_v54 (ix2 r j) k = ix2 r k from ix2_ext rfl rfl,
    show idx_main_v53 (ridx_main_v54 (ix2 r j) k) = ix2 j k from ix2_ext rfl rfl]

/-- The fourth code against the transposed dictionary. -/
theorem v69_eq (r : Fin 4096) (j : Fin 2112) :
    val_main_v69 (F := Ideal) x0 x2 x3 x4 (ix2 r j)
      = ∑ c : Fin 264, val_main_v67 (F := Ideal) x0 x2 x3 x4 (ix2 r c) * x4 (ix2 j c) := by
  rw [val_main_v69_apply]
  refine Finset.sum_congr rfl fun k _ => ?_
  rw [val_main_v68_apply,
    show lidx_main_v69 (ix2 r j) k = ix2 r k from ix2_ext rfl rfl,
    show idx_main_v68 (ridx_main_v69 (ix2 r j) k) = ix2 j k from ix2_ext rfl rfl]

/-! ## The first code and the four rounds -/

/-- The first code: the positive part of `-10` times the first residual's image. -/
theorem v22_eq (r : Fin 4096) (c : Fin 264) :
    val_main_v22 (F := Ideal) x0 x2 x3 x4 (ix2 r c)
      = RowSpec.firstCode (fun j c => x4 (ix2 j c))
          (fun j => val_main_v18 (F := Ideal) x0 x2 x3 (ix2 r j)) c := by
  rw [val_main_v22_apply, val_main_v21_apply, val_main_v20_apply, val_main_cst_0_apply,
    val_main_call1_v0_apply, val_main_call1_cst_apply, v19_eq]
  rfl

/-- Round one, the residual. -/
theorem v30_eq (r : Fin 4096) (j : Fin 2112) :
    val_main_v30 (F := Ideal) x0 x2 x3 x4 (ix2 r j)
      = RowSpec.nextResidual (fun j c => x4 (ix2 j c))
          (fun j => val_main_v17 (F := Ideal) x0 x2 x3 (ix2 r j))
          (fun j => val_main_v18 (F := Ideal) x0 x2 x3 (ix2 r j))
          (fun c => val_main_v22 (F := Ideal) x0 x2 x3 x4 (ix2 r c)) j := by
  rw [val_main_v30_apply, val_main_v27_apply, val_main_v29_apply, val_main_v26_apply, val_main_cst_1_apply,
    val_main_v28_apply, val_main_cst_2_apply, val_main_v25_apply, v24_eq]
  rfl

/-- Round one, the code. -/
theorem v37_eq (r : Fin 4096) (c : Fin 264) :
    val_main_v37 (F := Ideal) x0 x2 x3 x4 (ix2 r c)
      = RowSpec.nextCode (fun j c => x4 (ix2 j c))
          (fun j => val_main_v30 (F := Ideal) x0 x2 x3 x4 (ix2 r j))
          (fun c => val_main_v22 (F := Ideal) x0 x2 x3 x4 (ix2 r c)) c := by
  rw [val_main_v37_apply, val_main_v36_apply, val_main_v33_apply, val_main_v35_apply, val_main_v32_apply,
    val_main_cst_3_apply, val_main_v34_apply, val_main_cst_4_apply, val_main_call2_v0_apply,
    val_main_call2_cst_apply, v31_eq]
  rfl

/-- Round two, the residual. -/
theorem v45_eq (r : Fin 4096) (j : Fin 2112) :
    val_main_v45 (F := Ideal) x0 x2 x3 x4 (ix2 r j)
      = RowSpec.nextResidual (fun j c => x4 (ix2 j c))
          (fun j => val_main_v17 (F := Ideal) x0 x2 x3 (ix2 r j))
          (fun j => val_main_v30 (F := Ideal) x0 x2 x3 x4 (ix2 r j))
          (fun c => val_main_v37 (F := Ideal) x0 x2 x3 x4 (ix2 r c)) j := by
  rw [val_main_v45_apply, val_main_v42_apply, val_main_v44_apply, val_main_v41_apply, val_main_cst_5_apply,
    val_main_v43_apply, val_main_cst_6_apply, val_main_v40_apply, v39_eq]
  rfl

/-- Round two, the code. -/
theorem v52_eq (r : Fin 4096) (c : Fin 264) :
    val_main_v52 (F := Ideal) x0 x2 x3 x4 (ix2 r c)
      = RowSpec.nextCode (fun j c => x4 (ix2 j c))
          (fun j => val_main_v45 (F := Ideal) x0 x2 x3 x4 (ix2 r j))
          (fun c => val_main_v37 (F := Ideal) x0 x2 x3 x4 (ix2 r c)) c := by
  rw [val_main_v52_apply, val_main_v51_apply, val_main_v48_apply, val_main_v50_apply, val_main_v47_apply,
    val_main_cst_7_apply, val_main_v49_apply, val_main_cst_8_apply, val_main_call3_v0_apply,
    val_main_call3_cst_apply, v46_eq]
  rfl

/-- Round three, the residual. -/
theorem v60_eq (r : Fin 4096) (j : Fin 2112) :
    val_main_v60 (F := Ideal) x0 x2 x3 x4 (ix2 r j)
      = RowSpec.nextResidual (fun j c => x4 (ix2 j c))
          (fun j => val_main_v17 (F := Ideal) x0 x2 x3 (ix2 r j))
          (fun j => val_main_v45 (F := Ideal) x0 x2 x3 x4 (ix2 r j))
          (fun c => val_main_v52 (F := Ideal) x0 x2 x3 x4 (ix2 r c)) j := by
  rw [val_main_v60_apply, val_main_v57_apply, val_main_v59_apply, val_main_v56_apply, val_main_cst_9_apply,
    val_main_v58_apply, val_main_cst_10_apply, val_main_v55_apply, v54_eq]
  rfl

/-- Round three, the code. -/
theorem v67_eq (r : Fin 4096) (c : Fin 264) :
    val_main_v67 (F := Ideal) x0 x2 x3 x4 (ix2 r c)
      = RowSpec.nextCode (fun j c => x4 (ix2 j c))
          (fun j => val_main_v60 (F := Ideal) x0 x2 x3 x4 (ix2 r j))
          (fun c => val_main_v52 (F := Ideal) x0 x2 x3 x4 (ix2 r c)) c := by
  rw [val_main_v67_apply, val_main_v66_apply, val_main_v63_apply, val_main_v65_apply, val_main_v62_apply,
    val_main_cst_11_apply, val_main_v64_apply, val_main_cst_12_apply, val_main_call4_v0_apply,
    val_main_call4_cst_apply, v61_eq]
  rfl

/-- Round four, the residual. -/
theorem v75_eq (r : Fin 4096) (j : Fin 2112) :
    val_main_v75 (F := Ideal) x0 x2 x3 x4 (ix2 r j)
      = RowSpec.nextResidual (fun j c => x4 (ix2 j c))
          (fun j => val_main_v17 (F := Ideal) x0 x2 x3 (ix2 r j))
          (fun j => val_main_v60 (F := Ideal) x0 x2 x3 x4 (ix2 r j))
          (fun c => val_main_v67 (F := Ideal) x0 x2 x3 x4 (ix2 r c)) j := by
  rw [val_main_v75_apply, val_main_v72_apply, val_main_v74_apply, val_main_v71_apply, val_main_cst_13_apply,
    val_main_v73_apply, val_main_cst_14_apply, val_main_v70_apply, v69_eq]
  rfl

/-- Round four, the code. -/
theorem v82_eq (r : Fin 4096) (c : Fin 264) :
    val_main_v82 (F := Ideal) x0 x2 x3 x4 (ix2 r c)
      = RowSpec.nextCode (fun j c => x4 (ix2 j c))
          (fun j => val_main_v75 (F := Ideal) x0 x2 x3 x4 (ix2 r j))
          (fun c => val_main_v67 (F := Ideal) x0 x2 x3 x4 (ix2 r c)) c := by
  rw [val_main_v82_apply, val_main_v81_apply, val_main_v78_apply, val_main_v80_apply, val_main_v77_apply,
    val_main_cst_15_apply, val_main_v79_apply, val_main_cst_16_apply, val_main_call5_v0_apply,
    val_main_call5_cst_apply, v76_eq]
  rfl

/-- The code row after the five rounds is the specification's code of the feature row. -/
theorem row82 (r : Fin 4096) :
    (fun c => val_main_v82 (F := Ideal) x0 x2 x3 x4 (ix2 r c))
      = RowSpec.code (fun j c => x4 (ix2 j c)) (fun j => val_main_v17 (F := Ideal) x0 x2 x3 (ix2 r j)) := by
  have h22 : (fun c => val_main_v22 (F := Ideal) x0 x2 x3 x4 (ix2 r c)) = _ := funext fun c => v22_eq x0 x2 x3 x4 r c
  have h30 : (fun j => val_main_v30 (F := Ideal) x0 x2 x3 x4 (ix2 r j)) = _ := funext fun j => v30_eq x0 x2 x3 x4 r j
  have h37 : (fun c => val_main_v37 (F := Ideal) x0 x2 x3 x4 (ix2 r c)) = _ := funext fun c => v37_eq x0 x2 x3 x4 r c
  have h45 : (fun j => val_main_v45 (F := Ideal) x0 x2 x3 x4 (ix2 r j)) = _ := funext fun j => v45_eq x0 x2 x3 x4 r j
  have h52 : (fun c => val_main_v52 (F := Ideal) x0 x2 x3 x4 (ix2 r c)) = _ := funext fun c => v52_eq x0 x2 x3 x4 r c
  have h60 : (fun j => val_main_v60 (F := Ideal) x0 x2 x3 x4 (ix2 r j)) = _ := funext fun j => v60_eq x0 x2 x3 x4 r j
  have h67 : (fun c => val_main_v67 (F := Ideal) x0 x2 x3 x4 (ix2 r c)) = _ := funext fun c => v67_eq x0 x2 x3 x4 r c
  have h75 : (fun j => val_main_v75 (F := Ideal) x0 x2 x3 x4 (ix2 r j)) = _ := funext fun j => v75_eq x0 x2 x3 x4 r j
  have h82 : (fun c => val_main_v82 (F := Ideal) x0 x2 x3 x4 (ix2 r c)) = _ := funext fun c => v82_eq x0 x2 x3 x4 r c
  rw [h82, h75, h67, h60, h52, h45, h37, h30, h22, row18]
  rfl

/-! ## The three affine layers and the logistic function -/

/-- The first layer's product: the transposed weights are read with their coordinates swapped. -/
theorem v84_eq (r : Fin 4096) (a : Fin 264) :
    val_main_v84 (F := Ideal) x0 x2 x3 x4 x5 (ix2 r a)
      = ∑ c : Fin 264, val_main_v82 (F := Ideal) x0 x2 x3 x4 (ix2 r c) * x5 (ix2 a c) := by
  rw [val_main_v84_apply]
  refine Finset.sum_congr rfl fun k _ => ?_
  rw [val_main_v83_apply,
    show lidx_main_v84 (ix2 r a) k = ix2 r k from ix2_ext rfl rfl,
    show idx_main_v83 (ridx_main_v84 (ix2 r a) k) = ix2 a k from ix2_ext rfl rfl]

/-- The first layer: affine, then the positive part. -/
theorem v88_eq (r : Fin 4096) (a : Fin 264) :
    val_main_v88 (F := Ideal) x0 x2 x3 x4 x5 x6 (ix2 r a)
      = RowSpec.affineRelu (fun a b => x5 (ix2 a b)) (fun a => x6 (ix1 a))
          (fun c => val_main_v82 (F := Ideal) x0 x2 x3 x4 (ix2 r c)) a := by
  rw [val_main_v88_apply, val_main_v87_apply, val_main_v86_apply, val_main_v85_apply,
    val_main_call6_v0_apply, val_main_call6_cst_apply, v84_eq,
    show idx_main_v85 (idx_main_v86 (ix2 r a)) = ix1 a from ix1_ext rfl]
  rfl

/-- The second layer's product. -/
theorem v90_eq (r : Fin 4096) (a : Fin 88) :
    val_main_v90 (F := Ideal) x0 x2 x3 x4 x5 x6 x7 (ix2 r a)
      = ∑ c : Fin 264, val_main_v88 (F := Ideal) x0 x2 x3 x4 x5 x6 (ix2 r c) * x7 (ix2 a c) := by
  rw [val_main_v90_apply]
  refine Finset.sum_congr rfl fun k _ => ?_
  rw [val_main_v89_apply,
    show lidx_main_v90 (ix2 r a) k = ix2 r k from ix2_ext rfl rfl,
    show idx_main_v89 (ridx_main_v90 (ix2 r a) k) = ix2 a k from ix2_ext rfl rfl]

/-- The second layer: affine, then the positive part. -/
theorem v94_eq (r : Fin 4096) (a : Fin 88) :
    val_main_v94 (F := Ideal) x0 x2 x3 x4 x5 x6 x7 x8 (ix2 r a)
      = RowSpec.affineRelu (fun a b => x7 (ix2 a b)) (fun a => x8 (ix1 a))
          (fun c => val_main_v88 (F := Ideal) x0 x2 x3 x4 x5 x6 (ix2 r c)) a := by
  rw [val_main_v94_apply, val_main_v93_apply, val_main_v92_apply, val_main_v91_apply,
    val_main_call7_v0_apply, val_main_call7_cst_apply, v90_eq,
    show idx_main_v91 (idx_main_v92 (ix2 r a)) = ix1 a from ix1_ext rfl]
  rfl

/-- The output layer's product. -/
theorem v96_eq (r : Fin 4096) (o : Fin 88) :
    val_main_v96 (F := Ideal) x0 x2 x3 x4 x5 x6 x7 x8 x9 (ix2 r o)
      = ∑ a : Fin 88, val_main_v94 (F := Ideal) x0 x2 x3 x4 x5 x6 x7 x8 (ix2 r a) * x9 (ix2 o a) := by
  rw [val_main_v96_apply]
  refine Finset.sum_congr rfl fun k _ => ?_
  rw [val_main_v95_apply,
    show lidx_main_v96 (ix2 r o) k = ix2 r k from ix2_ext rfl rfl,
    show idx_main_v95 (ridx_main_v96 (ix2 r o) k) = ix2 o k from ix2_ext rfl rfl]

/-- The output layer: affine. -/
theorem v99_eq (r : Fin 4096) (o : Fin 88) :
    val_main_v99 (F := Ideal) x0 x2 x3 x4 x5 x6 x7 x8 x9 x10 (ix2 r o)
      = RowSpec.affine (fun a b => x9 (ix2 a b)) (fun a => x10 (ix1 a))
          (fun a => val_main_v94 (F := Ideal) x0 x2 x3 x4 x5 x6 x7 x8 (ix2 r a)) o := by
  rw [val_main_v99_apply, val_main_v98_apply, val_main_v97_apply, v96_eq,
    show idx_main_v97 (idx_main_v98 (ix2 r o)) = ix1 o from ix1_ext rfl]
  rfl

/-- The last four operations are the logistic function: `1 / (1 + exp (-x))`. -/
theorem v105_eq (r : Fin 4096) (o : Fin 88) :
    val_main_v105 (F := Ideal) x0 x2 x3 x4 x5 x6 x7 x8 x9 x10 (ix2 r o)
      = Ideal.logistic (val_main_v99 (F := Ideal) x0 x2 x3 x4 x5 x6 x7 x8 x9 x10 (ix2 r o)) := by
  rw [val_main_v105_apply, val_main_v104_apply, val_main_cst_18_apply, val_main_v103_apply,
    val_main_v102_apply, val_main_cst_17_apply, val_main_v101_apply, val_main_v100_apply]
  simp only [Ideal.hostDivf_def, Ideal.addf_def, Ideal.hostUnary_exp_def, Ideal.hostNegf_def, Ideal.negf_def,
    Ideal.ofBits_def, one_eq, Ideal.logistic]

/-! ## The whole reference -/

/-- The reference program, read at row `r` and output feature `o`, is the row specification. -/
theorem reference_apply (x0 : (⟨S4096x8192, .f32⟩ : BufTy).Contents (Elt Ideal)) (x2 x3 : (⟨S2112x8192, .f32⟩ : BufTy).Contents (Elt Ideal)) (x4 : (⟨S2112x264, .f32⟩ : BufTy).Contents (Elt Ideal)) (x5 : (⟨S264x264, .f32⟩ : BufTy).Contents (Elt Ideal)) (x6 : (⟨S264, .f32⟩ : BufTy).Contents (Elt Ideal)) (x7 : (⟨S88x264, .f32⟩ : BufTy).Contents (Elt Ideal)) (x8 : (⟨S88, .f32⟩ : BufTy).Contents (Elt Ideal)) (x9 : (⟨S88x88, .f32⟩ : BufTy).Contents (Elt Ideal)) (x10 : (⟨S88, .f32⟩ : BufTy).Contents (Elt Ideal)) (r : Fin 4096) (o : Fin 88) :
    val_main_v105 (F := Ideal) x0 x2 x3 x4 x5 x6 x7 x8 x9 x10 (ix2 r o)
      = Cert.RowSpec.result (fun r k => x0 (ix2 r k)) (fun j k => x2 (ix2 j k)) (fun j k => x3 (ix2 j k))
          (fun r => Ideal.div (Ideal.ofBits .f32 0x46000000#32) (val_main_v3 (F := Ideal) x0 (ix1 r)))
          (fun j c => x4 (ix2 j c)) (fun a b => x5 (ix2 a b)) (fun a => x6 (ix1 a)) (fun a b => x7 (ix2 a b)) (fun a => x8 (ix1 a))
          (fun a b => x9 (ix2 a b)) (fun a => x10 (ix1 a)) r o := by
  have h94 : (fun a => val_main_v94 (F := Ideal) x0 x2 x3 x4 x5 x6 x7 x8 (ix2 r a)) = _ :=
    funext fun a => v94_eq x0 x2 x3 x4 x5 x6 x7 x8 r a
  have h88 : (fun a => val_main_v88 (F := Ideal) x0 x2 x3 x4 x5 x6 (ix2 r a)) = _ :=
    funext fun a => v88_eq x0 x2 x3 x4 x5 x6 r a
  rw [v105_eq, v99_eq, h94, h88, row82, row17]
  rfl

end Cert.RefSide

end
-- ==== Proof.Meet.lean ====
/-
  The two programs meet.

  The kernel's result array ends at the specification of the arrays as the kernel finds them; the
  reference's result is the specification of its arguments.  The arrays the kernel finds are the
  arguments themselves (no host operation before the kernel writes them), its bias rows are the bias
  arguments, and its scale of row r is 8192 over the same count of the same signal that the reference
  divides by: the two counts are one chain of host operations, compared as a whole and never opened.
-/
import proofs.«133979_j38689065402872_1_alg».proof.Proof.KernelResult
import proofs.«133979_j38689065402872_1_alg».proof.Proof.RefValue

noncomputable section

namespace Cert.Meet

open Idealize.ShloMosaic Idealize.ShloMosaic.TcCoe Idealize.SL.Sem Idealize.ShloMosaic.ValueIdx
open Cert.KernelIdeal.Gen (V)

/-- The specification depends on its eleven arrays only. -/
theorem result_congr {X X' : Fin 4096 → Fin 8192 → EReal} {Wc Wc' Ws Ws' : Fin 2112 → Fin 8192 → EReal}
    {s s' : Fin 4096 → EReal} {T T' : Fin 2112 → Fin 264 → EReal} {W1 W1' : Fin 264 → Fin 264 → EReal}
    {b1 b1' : Fin 264 → EReal} {W2 W2' : Fin 88 → Fin 264 → EReal} {b2 b2' : Fin 88 → EReal}
    {Wo Wo' : Fin 88 → Fin 88 → EReal} {bo bo' : Fin 88 → EReal}
    (hX : X = X') (hWc : Wc = Wc') (hWs : Ws = Ws') (hs : s = s') (hT : T = T') (hW1 : W1 = W1') (hb1 : b1 = b1')
    (hW2 : W2 = W2') (hb2 : b2 = b2') (hWo : Wo = Wo') (hbo : bo = bo') (r : Fin 4096) (o : Fin 88) :
    Cert.RowSpec.result X Wc Ws s T W1 b1 W2 b2 Wo bo r o = Cert.RowSpec.result X' Wc' Ws' s' T' W1' b1' W2' b2' Wo' bo' r o := by
  subst hX hWc hWs hs hT hW1 hb1 hW2 hb2 hWo hbo
  rfl

/-- The kernel's host operations and the reference's compute the rows' counts by the same chain. -/
theorem rowCounts_eq {F : FTy → Type} [FloatOps F] (x : Vec F Cert.KernelIdeal.S4096x8192 .f32) :
    Cert.KernelInputs.rowCounts (F := F) x = Cert.ReferenceIdeal.ReadP.val_main_v3 (F := F) x := rfl

/-- The reference's result, of the kernel's arguments, is the specification the kernel's result array ends at. -/
theorem reference_is_spec (m : (ℓ : Loc Cert.KernelIdeal.nD Cert.KernelIdeal.τ Cert.KernelIdeal.sig) → Buf (Elt Ideal) ℓ)
    (c : Dev Cert.KernelIdeal.nD) :
    Cert.ReferenceIdeal.ReadP.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      = Cert.KernelResult.specAt m c := by
  funext y
  obtain ⟨r, o, rfl⟩ : ∃ (r : Fin 4096) (o : Fin 88), y = ix2 r o := ⟨y 0, y 1, eq_ix2 (n0 := 4096) (n1 := 88) y⟩
  rw [Cert.RefSide.reference_apply]
  unfold Cert.KernelResult.specAt
  exact result_congr
    (by rw [Cert.KernelIdeal.Gen.V_main_arg0 m c]) (by rw [Cert.KernelIdeal.Gen.V_main_arg2 m c])
    (by rw [Cert.KernelIdeal.Gen.V_main_arg3 m c])
    (funext fun r => by rw [Cert.KernelInputs.scale_apply, rowCounts_eq])
    (by rw [Cert.KernelIdeal.Gen.V_main_arg4 m c]) (by rw [Cert.KernelIdeal.Gen.V_main_arg5 m c])
    (funext fun a => (Cert.KernelInputs.b1_apply m c a).symm)
    (by rw [Cert.KernelIdeal.Gen.V_main_arg7 m c])
    (funext fun a => (Cert.KernelInputs.b2_apply m c a).symm)
    (by rw [Cert.KernelIdeal.Gen.V_main_arg9 m c])
    (funext fun a => (Cert.KernelInputs.bo_apply m c a).symm) r o

end Cert.Meet

end
-- ==== Proof.lean ====
/-
  The certificate's five claims.

  Both idealized programs compute, for every batch row, the logistic of three affine layers applied
  to the code that five rounds of an unrolled sparse-coding iteration produce from the row's
  spectral feature (Proof/RowSpec.lean).  The kernel reaches the feature by adding up, over 16 grid
  steps per tile of 512 rows, the products of 512 samples at a time (Proof/KernelTables.lean), the
  reference by one product over all 8192 samples; over the extended reals a sum may be split into
  stretches whatever the values, so the two agree on every input and the precondition is not used
  by the value claim.  The frames of the two kernel programs are the generated runs; the reference's
  frame is its run with the result dropped; the idealization rewrote nothing.
-/
import proofs.«133979_j38689065402872_1_alg».proof.Defs
import proofs.«133979_j38689065402872_1_alg».proof.Proof.Gen.Kernel
import proofs.«133979_j38689065402872_1_alg».proof.Proof.Gen.Kernel.Skeleton
import proofs.«133979_j38689065402872_1_alg».proof.Proof.Gen.Kernel.Launch
import proofs.«133979_j38689065402872_1_alg».proof.Proof.Gen.Kernel.Points
import proofs.«133979_j38689065402872_1_alg».proof.Proof.Gen.Kernel.Frame
import proofs.«133979_j38689065402872_1_alg».proof.Proof.Gen.KernelIdeal
import proofs.«133979_j38689065402872_1_alg».proof.Proof.Gen.KernelIdeal.Skeleton
import proofs.«133979_j38689065402872_1_alg».proof.Proof.Gen.KernelIdeal.Launch
import proofs.«133979_j38689065402872_1_alg».proof.Proof.Gen.KernelIdeal.Points
import proofs.«133979_j38689065402872_1_alg».proof.Proof.Gen.KernelIdeal.Frame
import proofs.«133979_j38689065402872_1_alg».proof.Proof.Gen.ReferenceIdeal
import proofs.«133979_j38689065402872_1_alg».proof.Proof.Gen.Pre_finite_inputs
import proofs.«133979_j38689065402872_1_alg».proof.Proof.Gen.KernelIdeal.Value
import proofs.«133979_j38689065402872_1_alg».proof.Proof.RefRun
import proofs.«133979_j38689065402872_1_alg».proof.Proof.RefRead
import proofs.«133979_j38689065402872_1_alg».proof.Proof.RowSpec
import proofs.«133979_j38689065402872_1_alg».proof.Proof.KernelResult
import proofs.«133979_j38689065402872_1_alg».proof.Proof.RefValue
import proofs.«133979_j38689065402872_1_alg».proof.Proof.Meet
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the specification of the kernel's arguments. -/
theorem algebraic : Cert.algebraic_KernelIdeal_ReferenceIdeal := by
  intro m ρ m' ρ' _ hagree
  refine ⟨fun c => Cert.KernelResult.specAt m c, Cert.KernelResult.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10⟩ := hagree c
  rw [Cert.ReferenceIdeal.ReadP.val_main_v105_eq, e0, e2, e3, e4, e5, e6, e7, e8, e9, e10]
  exact Cert.Meet.reference_is_spec m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
